-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x32x32 : Shape := ⟨4, ![16, 512, 32, 32]⟩
abbrev S16384x512 : Shape := ⟨2, ![16384, 512]⟩
abbrev S_ : Shape := ⟨0, ![]⟩

class Facts : Prop where
  bcast_S_S16x512x32x32 : S_.BroadcastsInDim S16x512x32x32 (![] : Fin 0 → Fin S16x512x32x32.rank)
  reducesTo_S16x512x32x32_S_d0_1_2_3 : S16x512x32x32.ReducesTo [0, 1, 2, 3] S_
  h_S_ : 0 < S_.numel
  bcast_S_S16384x512 : S_.BroadcastsInDim S16384x512 (![] : Fin 0 → Fin S16384x512.rank)
  reducesTo_S16384x512_S_d0_1 : S16384x512.ReducesTo [0, 1] S_

variable [Facts]

def fn {F : FTy → Type} [FloatOps F] (main_arg0 : FVec F S16x512x32x32 .f32) (main_arg1 : FVec F S16384x512 .f32) (main_arg2 : FVec F S16384x512 .f32) : IVec S_ 1 :=
  let main_v0 : FVec F S16x512x32x32 .f32 := Host.absf main_arg0
  let main_cst : FVec F S_ .f32 := constant S_ .f32 0x7F800000#32
  let main_v1 : FVec F S16x512x32x32 .f32 := broadcastInDim S16x512x32x32 ![] bcast_S_S16x512x32x32 main_cst
  let main_v2 : IVec S16x512x32x32 1 := cmpf .olt main_v0 main_v1
  let main_c : IVec S_ 1 := constantI S_ 1 1#1
  let main_v3 : IVec S_ 1 := (fun x v => Host.reduce IntOp.andi x v reducesTo_S16x512x32x32_S_d0_1_2_3 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  main_v13
-- ==== Kernel.lean ====
abbrev S16x512x32x32 : Shape := ⟨4, ![16, 512, 32, 32]⟩
abbrev S16384x512 : Shape := ⟨2, ![16384, 512]⟩
abbrev S1x512 : Shape := ⟨2, ![1, 512]⟩
abbrev S1x512x32x32 : Shape := ⟨4, ![1, 512, 32, 32]⟩
abbrev S512x32x32 : Shape := ⟨3, ![512, 32, 32]⟩
abbrev S512x32 : Shape := ⟨2, ![512, 32]⟩
abbrev S512 : Shape := ⟨1, ![512]⟩
abbrev S_ : Shape := ⟨0, ![]⟩
abbrev S1x1 : Shape := ⟨2, ![1, 1]⟩
abbrev S1024x512 : Shape := ⟨2, ![1024, 512]⟩
abbrev S32x32x512 : Shape := ⟨3, ![32, 32, 512]⟩
abbrev S1024 : Shape := ⟨1, ![1024]⟩
abbrev S1x1024 : Shape := ⟨2, ![1, 1024]⟩
abbrev S1 : Shape := ⟨1, ![1]⟩

abbrev nBuf : Space → Nat
  | .hbm => 15
  | .vmem => 13
  | .smem => 0
  | _ => 0

abbrev bufTy : (tb : Table) → Fin (tcTables nBuf tb) → BufTy
  | .hbm, ⟨0, _⟩ => ⟨S16x512x32x32, .f32⟩
  | .hbm, ⟨1, _⟩ => ⟨S16384x512, .f32⟩
  | .hbm, ⟨2, _⟩ => ⟨S16384x512, .f32⟩
  | .hbm, ⟨3, _⟩ => ⟨S1x512, .f32⟩
  | .hbm, ⟨4, _⟩ => ⟨S1x512, .f32⟩
  | .hbm, ⟨5, _⟩ => ⟨S_, .f32⟩
  | .hbm, ⟨6, _⟩ => ⟨S1x512, .f32⟩
  | .hbm, ⟨7, _⟩ => ⟨S1x512, .f32⟩
  | .hbm, ⟨8, _⟩ => ⟨S_, .f32⟩
  | .hbm, ⟨9, _⟩ => ⟨S1x512, .f32⟩
  | .hbm, ⟨10, _⟩ => ⟨S1x512, .f32⟩
  | .hbm, ⟨11, _⟩ => ⟨S1x1, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x512x32x32, .f32⟩
  | .local _ .vmem, ⟨1, _⟩ => ⟨S1x512x32x32, .f32⟩
  | .local _ .vmem, ⟨2, _⟩ => ⟨S1x512, .f32⟩
  | .local _ .vmem, ⟨3, _⟩ => ⟨S1x512, .f32⟩
  | .local _ .vmem, ⟨4, _⟩ => ⟨S1x512x32x32, .f32⟩
  | .local _ .vmem, ⟨5, _⟩ => ⟨S1x512x32x32, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1x512, .f32⟩
  | .local _ .vmem, ⟨11, _⟩ => ⟨S1x512, .f32⟩
  | .local _ .vmem, ⟨12, _⟩ => ⟨S1x1, .f32⟩
  | _, _ => ⟨S16x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x512x32x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  inb_S1x512x32x32_S1x512x32x32_0_0_0_0 : ∀ a, (![0, 0, 0, 0] : Fin 4 → Nat) a + S1x512x32x32.size a ≤ S1x512x32x32.size a
  h_S1x512x32x32 : 0 < S1x512x32x32.numel
  shapeCasts_S1x512x32x32_S512x32x32 : S1x512x32x32.ShapeCasts S512x32x32
  reduces_S512x32x32_S512x32 : S512x32x32.Reduces [2] S512x32
  reduces_S512x32_S512 : S512x32.Reduces [1] S512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S512_S1x512 : S512.ShapeCasts S1x512
  bcast_S_S1x512 : S_.BroadcastsInDim S1x512 (![] : Fin 0 → Fin S1x512.rank)
  transposes_S512x32x32_p1_2_0_S32x32x512 : S512x32x32.Transposes [1, 2, 0] S32x32x512
  shapeCasts_S32x32x512_S1024x512 : S32x32x512.ShapeCasts S1024x512
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  broadcasts_S1x512_S1024x512 : S1x512.Broadcasts S1024x512
  shapeCasts_S1024_S1x1024 : S1024.ShapeCasts S1x1024
  reduces_S1x1024_S1 : S1x1024.Reduces [1] S1
  shapeCasts_S1_S1x1 : S1.ShapeCasts S1x1
  inpos_S1x1_p0_0 : ∀ a, (![0, 0] : Fin 2 → Nat) a < S1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x32x32.size a ≤ S16x512x32x32.size a
  hwx0_0 : ∀ i : grid0.Coords, EltTy.bits .f32 = 32 ∨ (Rect.block (s := S16x512x32x32) S1x512x32x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x32x32.size a ≤ S16x512x32x32.size a
  hwx1_0 : ∀ i : grid1.Coords, EltTy.bits .f32 = 32 ∨ (Rect.block (s := S16x512x32x32) S1x512x32x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S16384x512.size a
  hwx1_1 : ∀ i : grid1.Coords, EltTy.bits .f32 = 32 ∨ (Rect.block (s := S16384x512) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S16384x512.size a
  hwx1_2 : ∀ i : grid1.Coords, EltTy.bits .f32 = 32 ∨ (Rect.block (s := S16384x512) S1024x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

abbrev win0_0 : Pipeline.Window sig grid0 :=
  Pipeline.Window.ofSpec (Memref.whole main_arg0) S1x512x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x512.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x512x32x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16x512x32x32 : Shape := ⟨4, ![16, 512, 32, 32]⟩
abbrev S16384x512 : Shape := ⟨2, ![16384, 512]⟩
abbrev S16x32x32x512 : Shape := ⟨4, ![16, 32, 32, 512]⟩
abbrev S_ : Shape := ⟨0, ![]⟩
abbrev S16384 : Shape := ⟨1, ![16384]⟩
abbrev S512 : Shape := ⟨1, ![512]⟩
abbrev S1x512 : Shape := ⟨2, ![1, 512]⟩

abbrev nBuf : Space → Nat
  | .hbm => 48
  | .vmem => 0
  | .smem => 0
  | _ => 0

abbrev bufTy : (tb : Table) → Fin (tcTables nBuf tb) → BufTy
  | .hbm, ⟨0, _⟩ => ⟨S16x512x32x32, .f32⟩
  | .hbm, ⟨1, _⟩ => ⟨S16384x512, .f32⟩
  | .hbm, ⟨2, _⟩ => ⟨S16384x512, .f32⟩
  | .hbm, ⟨3, _⟩ => ⟨S16x32x32x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S_, .f32⟩
  | .hbm, ⟨11, _⟩ => ⟨S16384, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S_, .f32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S16384x512, .f32⟩
  | .hbm, ⟨21, _⟩ => ⟨S_, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S_, .f32⟩
  | .hbm, ⟨27, _⟩ => ⟨S16384x512, .f32⟩
  | .hbm, ⟨28, _⟩ => ⟨S16384x512, .f32⟩
  | .hbm, ⟨29, _⟩ => ⟨S1x512, .f32⟩
  | .hbm, ⟨30, _⟩ => ⟨S16384x512, .f32⟩
  | .hbm, ⟨31, _⟩ => ⟨S16384x512, .f32⟩
  | .hbm, ⟨32, _⟩ => ⟨S1x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384, .f32⟩
  | .hbm, ⟨40, _⟩ => ⟨S_, .f32⟩
  | .hbm, ⟨41, _⟩ => ⟨S16384, .f32⟩
  | .hbm, ⟨42, _⟩ => ⟨S16384, .f32⟩
  | .hbm, ⟨43, _⟩ => ⟨S16384, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S16x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  transposes_S16x512x32x32_S16x32x32x512_0_2_3_1 : S16x512x32x32.Transposes [0, 2, 3, 1] S16x32x32x512
  shapeCasts_S16x32x32x512_S16384x512 : S16x32x32x512.ShapeCasts S16384x512
  reducesTo_S16384x512_S16384_d1 : S16384x512.ReducesTo [1] S16384
  h_S_ : 0 < S_.numel
  bcast_S_S16384 : S_.BroadcastsInDim S16384 (![] : Fin 0 → Fin S16384.rank)
  reducesTo_S16384x512_S512_d0 : S16384x512.ReducesTo [0] S512
  bcast_S_S512 : S_.BroadcastsInDim S512 (![] : Fin 0 → Fin S512.rank)
  bcast_S_S16384x512 : S_.BroadcastsInDim S16384x512 (![] : Fin 0 → Fin S16384x512.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  reducesTo_S16384_S_d0 : S16384.ReducesTo [0] S_

variable [Facts₀]

class Facts : Prop extends Facts₀ where

variable [Facts]
-- ==== Proof.StatsBody.lean ====
/-
  The statistics pass (the first of the two grids), read as values at any float instance.

  Grid point b (one batch entry, b = 0 … 15) loads the block x[b, :, :, :] of shape (512, 32, 32) and adds, into two
  rows of 512 features that stay in place over the whole grid,
      S1[d] += Σ_h Σ_w x[b, d, h, w]        S2[d] += Σ_h Σ_w x[b, d, h, w]²,
  the two rows being set to zero first at b = 0. So after point n the rows hold the left-nested sums
  ((0 + s(0)) + s(1)) + … + s(n) of the per-block feature sums s(b), and the two result arrays, written back once
  after the last point, hold that chain at n = 15.
-/
import proofs.«114080_j36034775613659_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Stats

open Cert.KernelIdeal Cert.KernelIdeal.Gen

variable {F : FTy → Type} [FloatOps F]
variable (V : (c : Dev nD) → (b : Ref sig .tc) → Buf (Elt F) ((c : Thread nD τ).loc b))

/-- The zero offsets of a rank-2 block, as the constant function. -/
theorem zeros2 : (![0, 0] : Fin 2 → Nat) = fun _ => 0 := funext fun a => by fin_cases a <;> rfl
/-- The zero offsets of a rank-4 block, as the constant function. -/
theorem zeros4 : (![0, 0, 0, 0] : Fin 4 → Nat) = fun _ => 0 := funext fun a => by fin_cases a <;> rfl

/-! ## What one grid point leaves in the two rows -/

section Cases

variable (c : Dev nD) (i : grid0.Coords) (a1 : Memref sig .tc .vmem S1x512x32x32 .f32) (h1 : a1.IsWhole)
  (a2 : Memref sig .tc .vmem S1x512 .f32) (h2 : a2.IsWhole) (a3 : Memref sig .tc .vmem S1x512 .f32) (h3 : a3.IsWhole)

/-- At the first point the row of sums is zeroed, read back, and left at `0 + s(0)`: the update's payload over the
    zero row. -/
theorem first_sum (hc : cond0_0 i) (x : Vec F S1x512x32x32 .f32) :
    out0_A_1 c i a1 h1 a2 h2 a3 h3 hc x = k0_pay4 x k0_pay2 := by
  unfold out0_A_1
  rw [View.read_writes_eq_canon _ _ _ (cover0_A_1 c i a1 h1 a2 h2 a3 h3 hc x)]
  unfold kernelRun0_A
  dsimp only
  sl_unfold_words
  rw [View.canon_cons_unit_zero (S := S1x512) zeros2, View.readCov_unit_zero (S := S1x512) _ zeros2]
  simp only [View.readAt_eq_ld, h1.read_unread, View.ld_unit_zero (S := S1x512x32x32) zeros4]

/-- Likewise the row of sums of squares: `0 + q(0)`. -/
theorem first_sumsq (hc : cond0_0 i) (x : Vec F S1x512x32x32 .f32) :
    out0_A_2 c i a1 h1 a2 h2 a3 h3 hc x = k0_pay5 x k0_pay3 := by
  unfold out0_A_2
  rw [View.read_writes_eq_canon _ _ _ (cover0_A_2 c i a1 h1 a2 h2 a3 h3 hc x)]
  unfold kernelRun0_A
  dsimp only
  sl_unfold_words
  rw [View.canon_cons_unit_zero (S := S1x512) zeros2, View.readCov_unit_zero (S := S1x512) _ zeros2]
  simp only [View.readAt_eq_ld, h1.read_unread, View.ld_unit_zero (S := S1x512x32x32) zeros4]

/-- At a later point the row of sums, holding `s`, is left at `s + s(b)`. -/
theorem later_sum (hc : ¬cond0_0 i) (x : Vec F S1x512x32x32 .f32) (s q : Vec F S1x512 .f32) :
    out0_B_1 c i a1 h1 a2 h2 a3 h3 hc x s q = k0_pay4 x s := by
  unfold out0_B_1
  rw [View.read_writes_eq_canon _ _ _ (cover0_B_1 c i a1 h1 a2 h2 a3 h3 hc x s q)]
  unfold kernelRun0_B
  dsimp only
  sl_unfold_words
  rw [View.canon_unit_zero zeros2]
  simp only [View.readAt_eq_ld, h1.read_unread, h2.read_unread, View.ld_unit_zero (S := S1x512x32x32) zeros4,
    View.ld_unit_zero (S := S1x512) zeros2]

/-- And the row of sums of squares, holding `q`, at `q + q(b)`. -/
theorem later_sumsq (hc : ¬cond0_0 i) (x : Vec F S1x512x32x32 .f32) (s q : Vec F S1x512 .f32) :
    out0_B_2 c i a1 h1 a2 h2 a3 h3 hc x s q = k0_pay5 x q := by
  unfold out0_B_2
  rw [View.read_writes_eq_canon _ _ _ (cover0_B_2 c i a1 h1 a2 h2 a3 h3 hc x s q)]
  unfold kernelRun0_B
  dsimp only
  sl_unfold_words
  rw [View.canon_unit_zero zeros2]
  simp only [View.readAt_eq_ld, h1.read_unread, h3.read_unread, View.ld_unit_zero (S := S1x512x32x32) zeros4,
    View.ld_unit_zero (S := S1x512) zeros2]

end Cases

/-! ## The running rows over the grid -/

/-- The block of x that grid point `t` loads: x[t, :, :, :], as the region finds the array. -/
abbrev xblk (c : Dev nD) (t : Fin cfg0.N) : Vec F S1x512x32x32 .f32 := iblk0 V c 0 t

/-- The two rows after point `n`: the update over the zero rows at 0, over the rows of the point before later. -/
def running (c : Dev nD) : (n : ℕ) → n < cfg0.N → Vec F S1x512 .f32 × Vec F S1x512 .f32
  | 0, h => (k0_pay4 (xblk V c ⟨0, h⟩) k0_pay2, k0_pay5 (xblk V c ⟨0, h⟩) k0_pay3)
  | n + 1, h => (k0_pay4 (xblk V c ⟨n + 1, h⟩) (running c n (Nat.lt_of_succ_lt h)).1,
      k0_pay5 (xblk V c ⟨n + 1, h⟩) (running c n (Nat.lt_of_succ_lt h)).2)

/-- What the two staging rows hold after point `n` is that running pair: by induction on the point. -/
theorem outsAt_eq (c : Dev nD) : ∀ (n : ℕ) (h : n < cfg0.N), outsAt0 V c n h = running V c n h
  | 0, h => by
    rw [outsAt0_A V c ⟨0, h⟩ rfl, first_sum, first_sumsq]
    rfl
  | n + 1, h => by
    have hN : cfg0.N = 16 := N_0
    have hB : ¬(⟨n + 1, h⟩ : Fin cfg0.N).val % 16 = 0 := by dsimp only; omega
    rw [outsAt0_B V c ⟨n + 1, h⟩ hB, later_sum, later_sumsq]
    show (k0_pay4 _ (outsAt0 V c n _).1, k0_pay5 _ (outsAt0 V c n _).2) = _
    rw [outsAt_eq c n]
    rfl

/-! ## The two result arrays -/

/-- The last grid point. -/
theorem last_lt : 15 < cfg0.N := by rw [show cfg0.N = 16 from N_0]; decide

/-- The row of sums after the whole grid, as contents of its result array (one block, the whole array). -/
abbrev sumRow (c : Dev nD) : Buf (Elt F) ((c : Thread nD τ).loc main_v0_0) := (running V c 15 last_lt).1
/-- The row of sums of squares after the whole grid. -/
abbrev sumsqRow (c : Dev nD) : Buf (Elt F) ((c : Thread nD τ).loc main_v0_1) := (running V c 15 last_lt).2

/-- The one write-back of the sums, after point 15, writes the running row: block (0, 0) of a [1, 512] array is the
    array. -/
theorem flushed_sum (c : Dev nD) (t : Fin cfg0.N) (hf : (cfg0.win 1).flush t = true) :
    (dat0 V c).flushed 1 t = ((cfg0.win 1).blk t).view.read (Elt F) (sumRow V c) := by
  have hN : cfg0.N = 16 := N_0
  have h15 : t.val = 15 := by have := (flush0_1 t).mp hf; have := t.isLt; omega
  obtain rfl : t = t0_15 := Fin.ext h15
  show (cfg0.win 1).cut (grid0.coords t0_15) ((dat0 V c).after 1 t0_15) = _
  rw [after0_1, outsAt_eq]
  have hz : (fun a => win0_1.index t0_15 a * main_v0_0.ty.shape.size a) = fun _ => 0 := funext fun a => by fin_cases a <;> decide
  exact (Memref.read_access_unit_zero (Elt F) main_v0_0 hz (fun a => by rw [congrFun hz a]; simp) (sumRow V c)).symm

/-- Likewise the sums of squares. -/
theorem flushed_sumsq (c : Dev nD) (t : Fin cfg0.N) (hf : (cfg0.win 2).flush t = true) :
    (dat0 V c).flushed 2 t = ((cfg0.win 2).blk t).view.read (Elt F) (sumsqRow V c) := by
  have hN : cfg0.N = 16 := N_0
  have h15 : t.val = 15 := by have := (flush0_2 t).mp hf; have := t.isLt; omega
  obtain rfl : t = t0_15 := Fin.ext h15
  show (cfg0.win 2).cut (grid0.coords t0_15) ((dat0 V c).after 2 t0_15) = _
  rw [after0_2, outsAt_eq]
  have hz : (fun a => win0_2.index t0_15 a * main_v0_1.ty.shape.size a) = fun _ => 0 := funext fun a => by fin_cases a <;> decide
  exact (Memref.read_access_unit_zero (Elt F) main_v0_1 hz (fun a => by rw [congrFun hz a]; simp) (sumsqRow V c)).symm

/-- Every entry of the [1, 512] array of sums lies in the block the last point writes back. -/
theorem covered_sum (c : Dev nD) (i : ((cfg0.win 1).arr.view.loc (c.tc : Thread nD τ)).2.ty.Idx) :
    ∃ t : Fin cfg0.N, (cfg0.win 1).flush t = true ∧ i ∈ ((cfg0.win 1).blk t).view.set :=
  ⟨t0_15, (flush0_1 t0_15).mpr rfl, by
    show i ∈ ((View.whole main_v0_0).slice (win0_1.rect t0_15)).set
    rw [View.set_slice_whole, Rect.mem_set_unit]
    intro a
    have h0 : (i 0 : Nat) < 1 := (i 0).isLt
    have h1 : (i 1 : Nat) < 512 := (i 1).isLt
    match a with
    | ⟨0, _⟩ =>
      show win0_1.index t0_15 0 * win0_1.size 0 ≤ (i 0 : Nat) ∧ (i 0 : Nat) < win0_1.index t0_15 0 * win0_1.size 0 + win0_1.xsize (grid0.coords t0_15) 0
      rw [show win0_1.index t0_15 0 * win0_1.size 0 = 0 from by decide +kernel, show win0_1.xsize (grid0.coords t0_15) 0 = 1 from by decide +kernel]; omega
    | ⟨1, _⟩ =>
      show win0_1.index t0_15 1 * win0_1.size 1 ≤ (i 1 : Nat) ∧ (i 1 : Nat) < win0_1.index t0_15 1 * win0_1.size 1 + win0_1.xsize (grid0.coords t0_15) 1
      rw [show win0_1.index t0_15 1 * win0_1.size 1 = 0 from by decide +kernel, show win0_1.xsize (grid0.coords t0_15) 1 = 512 from by decide +kernel]; omega⟩

/-- Every entry of the [1, 512] array of sums of squares lies in the block the last point writes back. -/
theorem covered_sumsq (c : Dev nD) (i : ((cfg0.win 2).arr.view.loc (c.tc : Thread nD τ)).2.ty.Idx) :
    ∃ t : Fin cfg0.N, (cfg0.win 2).flush t = true ∧ i ∈ ((cfg0.win 2).blk t).view.set :=
  ⟨t0_15, (flush0_2 t0_15).mpr rfl, by
    show i ∈ ((View.whole main_v0_1).slice (win0_2.rect t0_15)).set
    rw [View.set_slice_whole, Rect.mem_set_unit]
    intro a
    have h0 : (i 0 : Nat) < 1 := (i 0).isLt
    have h1 : (i 1 : Nat) < 512 := (i 1).isLt
    match a with
    | ⟨0, _⟩ =>
      show win0_2.index t0_15 0 * win0_2.size 0 ≤ (i 0 : Nat) ∧ (i 0 : Nat) < win0_2.index t0_15 0 * win0_2.size 0 + win0_2.xsize (grid0.coords t0_15) 0
      rw [show win0_2.index t0_15 0 * win0_2.size 0 = 0 from by decide +kernel, show win0_2.xsize (grid0.coords t0_15) 0 = 1 from by decide +kernel]; omega
    | ⟨1, _⟩ =>
      show win0_2.index t0_15 1 * win0_2.size 1 ≤ (i 1 : Nat) ∧ (i 1 : Nat) < win0_2.index t0_15 1 * win0_2.size 1 + win0_2.xsize (grid0.coords t0_15) 1
      rw [show win0_2.index t0_15 1 * win0_2.size 1 = 0 from by decide +kernel, show win0_2.xsize (grid0.coords t0_15) 1 = 512 from by decide +kernel]; omega⟩

/-- So the array of sums ends holding the running row after point 15; -/
theorem final_sum (c : Dev nD) : (dat0 V c).arrAt 1 cfg0.N = sumRow V c :=
  (dat0 V c).arrAt_eq_of_cover 1 (sumRow V c) (flushed_sum V c) (covered_sum c)

/-- and the array of sums of squares likewise. -/
theorem final_sumsq (c : Dev nD) : (dat0 V c).arrAt 2 cfg0.N = sumsqRow V c :=
  (dat0 V c).arrAt_eq_of_cover 2 (sumsqRow V c) (flushed_sumsq V c) (covered_sumsq c)

end Cert.KernelIdeal.Stats

end
-- ==== Proof.LossBody.lean ====
/-
  The loss pass (the second grid), read as values at any float instance.

  Grid point b loads the block x[b, :, :, :], rows 1024·b … 1024·b + 1023 of p_mu and p_logvar, and the two rows of
  512 feature means, computes from them one number p(b) — the sum over the block's 1024 tokens of the positive bound
  minus the negative bound — and adds it into a [1, 1] cell that stays in place over the grid, set to zero first at
  b = 0. After point n the cell holds ((0 + p(0)) + p(1)) + … + p(n); the [1, 1] result array, written back once
  after the last point, holds that chain at n = 15.
-/
import proofs.«114080_j36034775613659_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Loss

open Cert.KernelIdeal Cert.KernelIdeal.Gen

variable {F : FTy → Type} [FloatOps F]
variable (V : (c : Dev nD) → (b : Ref sig .tc) → Buf (Elt F) ((c : Thread nD τ).loc b))

/-- The zero offsets of a rank-2 block, as the constant function. -/
theorem zeros2 : (![0, 0] : Fin 2 → Nat) = fun _ => 0 := funext fun a => by fin_cases a <;> rfl
/-- The zero offsets of a rank-4 block, as the constant function. -/
theorem zeros4 : (![0, 0, 0, 0] : Fin 4 → Nat) = fun _ => 0 := funext fun a => by fin_cases a <;> rfl

/-! ## What one grid point leaves in the cell -/

section Cases

variable (c : Dev nD) (i : grid1.Coords) (a1 : Memref sig .tc .vmem S1x512x32x32 .f32) (h1 : a1.IsWhole)
  (a2 : Memref sig .tc .vmem S1024x512 .f32) (h2 : a2.IsWhole) (a3 : Memref sig .tc .vmem S1024x512 .f32) (h3 : a3.IsWhole)
  (a4 : Memref sig .tc .vmem S1x512 .f32) (h4 : a4.IsWhole) (a5 : Memref sig .tc .vmem S1x512 .f32) (h5 : a5.IsWhole)
  (a6 : Memref sig .tc .vmem S1x1 .f32) (h6 : a6.IsWhole)

/-- At the first point the cell is zeroed, read back, and left at `0 + p(0)`. -/
theorem first_total (hc : cond1_0 i) (x0 : Vec F S1x512x32x32 .f32) (x1 x2 : Vec F S1024x512 .f32) (x3 x4 : Vec F S1x512 .f32) :
    out1_A_5 c i a1 h1 a2 h2 a3 h3 a4 h4 a5 h5 a6 h6 hc x0 x1 x2 x3 x4 = k1_pay2 (k1_pay3 x0 x1 x2 x3 x4) k1_pay1 := by
  unfold out1_A_5
  rw [View.read_writes_eq_canon _ _ _ (cover1_A_5 c i a1 h1 a2 h2 a3 h3 a4 h4 a5 h5 a6 h6 hc x0 x1 x2 x3 x4)]
  unfold kernelRun1_A
  dsimp only
  sl_unfold_words
  rw [View.canon_cons_unit_zero (S := S1x1) zeros2, View.readCov_unit_zero (S := S1x1) _ zeros2]
  simp only [View.readAt_eq_ld, h1.read_unread, h2.read_unread, h3.read_unread, h4.read_unread, h5.read_unread,
    View.ld_unit_zero (S := S1x512x32x32) zeros4, View.ld_unit_zero (S := S1024x512) zeros2,
    View.ld_unit_zero (S := S1x512) zeros2]

/-- At a later point the cell, holding `s`, is left at `s + p(b)`. -/
theorem later_total (hc : ¬cond1_0 i) (x0 : Vec F S1x512x32x32 .f32) (x1 x2 : Vec F S1024x512 .f32) (x3 x4 : Vec F S1x512 .f32)
    (s : Vec F S1x1 .f32) :
    out1_B_5 c i a1 h1 a2 h2 a3 h3 a4 h4 a5 h5 a6 h6 hc x0 x1 x2 x3 x4 s = k1_pay2 (k1_pay3 x0 x1 x2 x3 x4) s := by
  unfold out1_B_5
  rw [View.read_writes_eq_canon _ _ _ (cover1_B_5 c i a1 h1 a2 h2 a3 h3 a4 h4 a5 h5 a6 h6 hc x0 x1 x2 x3 x4 s)]
  unfold kernelRun1_B
  dsimp only
  sl_unfold_words
  rw [View.canon_unit_zero zeros2]
  simp only [View.readAt_eq_ld, h1.read_unread, h2.read_unread, h3.read_unread, h4.read_unread, h5.read_unread, h6.read_unread,
    View.ld_unit_zero (S := S1x512x32x32) zeros4, View.ld_unit_zero (S := S1024x512) zeros2,
    View.ld_unit_zero (S := S1x512) zeros2, View.ld_unit_zero (S := S1x1) zeros2]

end Cases

/-! ## The running cell over the grid -/

/-- The blocks grid point `t` loads, as the region finds the arrays: x[t, :, :, :]; rows 1024·t … of p_mu and of
    p_logvar; the row of means and the row of mean squares (the same at every point). -/
abbrev xblk (c : Dev nD) (t : Fin cfg1.N) : Vec F S1x512x32x32 .f32 := iblk1 V c 0 t
abbrev mublk (c : Dev nD) (t : Fin cfg1.N) : Vec F S1024x512 .f32 := iblk1 V c 1 t
abbrev lvblk (c : Dev nD) (t : Fin cfg1.N) : Vec F S1024x512 .f32 := iblk1 V c 2 t
abbrev m1blk (c : Dev nD) (t : Fin cfg1.N) : Vec F S1x512 .f32 := iblk1 V c 3 t
abbrev m2blk (c : Dev nD) (t : Fin cfg1.N) : Vec F S1x512 .f32 := iblk1 V c 4 t

/-- The block's contribution p(t), as a [1, 1] vector. -/
abbrev part (c : Dev nD) (t : Fin cfg1.N) : FVec F S1x1 .f32 :=
  k1_pay3 (xblk V c t) (mublk V c t) (lvblk V c t) (m1blk V c t) (m2blk V c t)

/-- The cell after point `n`. -/
def running (c : Dev nD) : (n : ℕ) → n < cfg1.N → Vec F S1x1 .f32
  | 0, h => k1_pay2 (part V c ⟨0, h⟩) k1_pay1
  | n + 1, h => k1_pay2 (part V c ⟨n + 1, h⟩) (running c n (Nat.lt_of_succ_lt h))

/-- What the staging cell holds after point `n` is that running value: by induction on the point. -/
theorem outsAt_eq (c : Dev nD) : ∀ (n : ℕ) (h : n < cfg1.N), outsAt1 V c n h = running V c n h
  | 0, h => by
    rw [outsAt1_A V c ⟨0, h⟩ rfl, first_total]
    rfl
  | n + 1, h => by
    have hN : cfg1.N = 16 := N_1
    have hB : ¬(⟨n + 1, h⟩ : Fin cfg1.N).val % 16 = 0 := by dsimp only; omega
    rw [outsAt1_B V c ⟨n + 1, h⟩ hB, later_total]
    show k1_pay2 _ (outsAt1 V c n _) = _
    rw [outsAt_eq c n]
    rfl

/-! ## The result array -/

theorem last_lt : 15 < cfg1.N := by rw [show cfg1.N = 16 from N_1]; decide

/-- The cell after the whole grid, as contents of the [1, 1] result array. -/
abbrev total (c : Dev nD) : Buf (Elt F) ((c : Thread nD τ).loc main_v5) := running V c 15 last_lt

/-- The one write-back, after point 15, writes the running cell: block (0, 0) of a [1, 1] array is the array. -/
theorem flushed_total (c : Dev nD) (t : Fin cfg1.N) (hf : (cfg1.win 5).flush t = true) :
    (dat1 V c).flushed 5 t = ((cfg1.win 5).blk t).view.read (Elt F) (total V c) := by
  have hN : cfg1.N = 16 := N_1
  have h15 : t.val = 15 := by have := (flush1_5 t).mp hf; have := t.isLt; omega
  obtain rfl : t = t1_15 := Fin.ext h15
  show (cfg1.win 5).cut (grid1.coords t1_15) ((dat1 V c).after 5 t1_15) = _
  rw [after1_5, outsAt_eq]
  have hz : (fun a => win1_5.index t1_15 a * main_v5.ty.shape.size a) = fun _ => 0 := funext fun a => by fin_cases a <;> decide
  exact (Memref.read_access_unit_zero (Elt F) main_v5 hz (fun a => by rw [congrFun hz a]; simp) (total V c)).symm

/-- The one entry of the [1, 1] array lies in the block the last point writes back. -/
theorem covered_total (c : Dev nD) (i : ((cfg1.win 5).arr.view.loc (c.tc : Thread nD τ)).2.ty.Idx) :
    ∃ t : Fin cfg1.N, (cfg1.win 5).flush t = true ∧ i ∈ ((cfg1.win 5).blk t).view.set :=
  ⟨t1_15, (flush1_5 t1_15).mpr rfl, by
    show i ∈ ((View.whole main_v5).slice (win1_5.rect t1_15)).set
    rw [View.set_slice_whole, Rect.mem_set_unit]
    intro a
    have h0 : (i 0 : Nat) < 1 := (i 0).isLt
    have h1 : (i 1 : Nat) < 1 := (i 1).isLt
    match a with
    | ⟨0, _⟩ =>
      show win1_5.index t1_15 0 * win1_5.size 0 ≤ (i 0 : Nat) ∧ (i 0 : Nat) < win1_5.index t1_15 0 * win1_5.size 0 + win1_5.xsize (grid1.coords t1_15) 0
      rw [show win1_5.index t1_15 0 * win1_5.size 0 = 0 from by decide +kernel, show win1_5.xsize (grid1.coords t1_15) 0 = 1 from by decide +kernel]; omega
    | ⟨1, _⟩ =>
      show win1_5.index t1_15 1 * win1_5.size 1 ≤ (i 1 : Nat) ∧ (i 1 : Nat) < win1_5.index t1_15 1 * win1_5.size 1 + win1_5.xsize (grid1.coords t1_15) 1
      rw [show win1_5.index t1_15 1 * win1_5.size 1 = 0 from by decide +kernel, show win1_5.xsize (grid1.coords t1_15) 1 = 1 from by decide +kernel]; omega⟩

/-- So the result array ends holding the running cell after point 15. -/
theorem final_total (c : Dev nD) : (dat1 V c).arrAt 5 cfg1.N = total V c :=
  (dat1 V c).arrAt_eq_of_cover 5 (total V c) (flushed_total V c) (covered_total c)

end Cert.KernelIdeal.Loss

end
-- ==== Proof.BlockReads.lean ====
/-
  The blocks the two grids load, read at an index of their arrays. Grid point t of either grid reads the image block
  x[t, :, :, :] (block index (t, 0, 0, 0) of blocks of shape [1, 512, 32, 32]); the loss pass also reads rows
  1024·t … 1024·t + 1023 of the two token arrays (block index (t, 0) of blocks of shape [1024, 512]) and, at every point,
  the whole [1, 512] rows of feature means. An entry of a block sits in the array, on each axis, at block index × block
  size + its coordinate inside the block.
-/
import proofs.«114080_j36034775613659_1_alg».proof.Proof.StatsBody
import proofs.«114080_j36034775613659_1_alg».proof.Proof.LossBody
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (V : (c : Dev nD) → (b : Ref sig .tc) → Buf (Elt F) ((c : Thread nD τ).loc b))

/-- The block indices of the statistics pass's image window. -/
theorem stats_x_index : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)

/-- The statistics pass's image block at point t is x[t, :, :, :]. -/
theorem stats_x (c : Dev nD) (t : Fin cfg0.N) (b : Fin 16) (hb : t.val = b.val) (d : Fin 512) (k w : Fin 32) :
    Stats.xblk V c t (ix4 0 d k w) = V c main_arg0 (ix4 b d k w) := by
  obtain ⟨i0, i1, i2, i3⟩ := stats_x_index t
  unfold Stats.xblk iblk0
  rw [View.read_apply]
  show V c main_arg0 _ = V c main_arg0 _
  refine congrArg _ (funext fun a => Fin.ext ?_)
  match a with
  | ⟨0, _⟩ => show win0_0.index t 0 * 1 + 1 * 0 = b.val; rw [i0]; omega
  | ⟨1, _⟩ => show win0_0.index t 1 * 512 + 1 * d.val = d.val; rw [i1]; omega
  | ⟨2, _⟩ => show win0_0.index t 2 * 32 + 1 * k.val = k.val; rw [i2]; omega
  | ⟨3, _⟩ => show win0_0.index t 3 * 32 + 1 * w.val = w.val; rw [i3]; omega

/-- The block indices of the loss pass's windows. -/
theorem loss_x_index : ∀ t : Fin cfg1.N, win1_0.index t 0 = t.val ∧ win1_0.index t 1 = 0 ∧ win1_0.index t 2 = 0 ∧ win1_0.index t 3 = 0 :=
  (by decide +kernel : ∀ t : Fin grid1.N, win1_0.index t 0 = t.val ∧ win1_0.index t 1 = 0 ∧ win1_0.index t 2 = 0 ∧ win1_0.index t 3 = 0)
theorem loss_mu_index : ∀ t : Fin cfg1.N, win1_1.index t 0 = t.val ∧ win1_1.index t 1 = 0 :=
  (by decide +kernel : ∀ t : Fin grid1.N, win1_1.index t 0 = t.val ∧ win1_1.index t 1 = 0)
theorem loss_lv_index : ∀ t : Fin cfg1.N, win1_2.index t 0 = t.val ∧ win1_2.index t 1 = 0 :=
  (by decide +kernel : ∀ t : Fin grid1.N, win1_2.index t 0 = t.val ∧ win1_2.index t 1 = 0)
theorem loss_m1_index : ∀ t : Fin cfg1.N, win1_3.index t 0 = 0 ∧ win1_3.index t 1 = 0 :=
  (by decide +kernel : ∀ t : Fin grid1.N, win1_3.index t 0 = 0 ∧ win1_3.index t 1 = 0)
theorem loss_m2_index : ∀ t : Fin cfg1.N, win1_4.index t 0 = 0 ∧ win1_4.index t 1 = 0 :=
  (by decide +kernel : ∀ t : Fin grid1.N, win1_4.index t 0 = 0 ∧ win1_4.index t 1 = 0)

/-- The loss pass's image block at point t is x[t, :, :, :]. -/
theorem loss_x (c : Dev nD) (t : Fin cfg1.N) (b : Fin 16) (hb : t.val = b.val) (d : Fin 512) (k w : Fin 32) :
    Loss.xblk V c t (ix4 0 d k w) = V c main_arg0 (ix4 b d k w) := by
  obtain ⟨i0, i1, i2, i3⟩ := loss_x_index t
  unfold Loss.xblk iblk1
  rw [View.read_apply]
  show V c main_arg0 _ = V c main_arg0 _
  refine congrArg _ (funext fun a => Fin.ext ?_)
  match a with
  | ⟨0, _⟩ => show win1_0.index t 0 * 1 + 1 * 0 = b.val; rw [i0]; omega
  | ⟨1, _⟩ => show win1_0.index t 1 * 512 + 1 * d.val = d.val; rw [i1]; omega
  | ⟨2, _⟩ => show win1_0.index t 2 * 32 + 1 * k.val = k.val; rw [i2]; omega
  | ⟨3, _⟩ => show win1_0.index t 3 * 32 + 1 * w.val = w.val; rw [i3]; omega

/-- Its block of predicted means at point t is rows 1024·t … of p_mu. -/
theorem loss_mu (c : Dev nD) (t : Fin cfg1.N) (n : Fin 16384) (r : Fin 1024) (hn : n.val = t.val * 1024 + r.val) (d : Fin 512) :
    Loss.mublk V c t (ix2 r d) = V c main_arg1 (ix2 n d) := by
  obtain ⟨i0, i1⟩ := loss_mu_index t
  unfold Loss.mublk iblk1
  rw [View.read_apply]
  show V c main_arg1 _ = V c main_arg1 _
  refine congrArg _ (funext fun a => Fin.ext ?_)
  match a with
  | ⟨0, _⟩ => show win1_1.index t 0 * 1024 + 1 * r.val = n.val; rw [i0]; omega
  | ⟨1, _⟩ => show win1_1.index t 1 * 512 + 1 * d.val = d.val; rw [i1]; omega

/-- Its block of predicted log-variances at point t is rows 1024·t … of p_logvar. -/
theorem loss_lv (c : Dev nD) (t : Fin cfg1.N) (n : Fin 16384) (r : Fin 1024) (hn : n.val = t.val * 1024 + r.val) (d : Fin 512) :
    Loss.lvblk V c t (ix2 r d) = V c main_arg2 (ix2 n d) := by
  obtain ⟨i0, i1⟩ := loss_lv_index t
  unfold Loss.lvblk iblk1
  rw [View.read_apply]
  show V c main_arg2 _ = V c main_arg2 _
  refine congrArg _ (funext fun a => Fin.ext ?_)
  match a with
  | ⟨0, _⟩ => show win1_2.index t 0 * 1024 + 1 * r.val = n.val; rw [i0]; omega
  | ⟨1, _⟩ => show win1_2.index t 1 * 512 + 1 * d.val = d.val; rw [i1]; omega

/-- The row of means is read whole at every point, -/
theorem loss_m1 (c : Dev nD) (t : Fin cfg1.N) (d : Fin 512) :
    Loss.m1blk V c t (ix2 0 d) = V c main_v2 (ix2 0 d) := by
  obtain ⟨i0, i1⟩ := loss_m1_index t
  unfold Loss.m1blk iblk1
  rw [View.read_apply]
  show V c main_v2 _ = V c main_v2 _
  refine congrArg _ (funext fun a => Fin.ext ?_)
  match a with
  | ⟨0, _⟩ => show win1_3.index t 0 * 1 + 1 * 0 = 0; rw [i0]
  | ⟨1, _⟩ => show win1_3.index t 1 * 512 + 1 * d.val = d.val; rw [i1]; omega

/-- and so is the row of mean squares. -/
theorem loss_m2 (c : Dev nD) (t : Fin cfg1.N) (d : Fin 512) :
    Loss.m2blk V c t (ix2 0 d) = V c main_v4 (ix2 0 d) := by
  obtain ⟨i0, i1⟩ := loss_m2_index t
  unfold Loss.m2blk iblk1
  rw [View.read_apply]
  show V c main_v4 _ = V c main_v4 _
  refine congrArg _ (funext fun a => Fin.ext ?_)
  match a with
  | ⟨0, _⟩ => show win1_4.index t 0 * 1 + 1 * 0 = 0; rw [i0]
  | ⟨1, _⟩ => show win1_4.index t 1 * 512 + 1 * d.val = d.val; rw [i1]; omega

end Cert.KernelIdeal.Blocks

end
-- ==== Proof.Spec.lean ====
/-
  The value both programs compute, as one extended-real number of the three argument arrays: the CLUB upper bound on
  mutual information with the negative term expanded through the feature means.

  x has shape [16, 512, 32, 32] (batch, feature, height, width); p_mu and p_logvar have shape [16384, 512] (token,
  feature), token (b, r) — batch entry b, position r = 32·h + w of the image — being row 1024·b + r. With
      X(b, r, d) = x[b, d, r / 32, r % 32]      μ(b, r, d) = p_mu[1024 b + r, d]      e(b, r, d) = exp(−p_logvar[1024 b + r, d])
  the value is
      S1(d) = Σ_b Σ_r X(b, r, d)      S2(d) = Σ_b Σ_r X(b, r, d)²      m1 = S1 / 16384      m2 = S2 / 16384
      pos(b, r) = (−1/2) · Σ_d (X − μ)² · e
      neg(b, r) = (−1/2) · Σ_d ((m2(d) − 2 μ · m1(d)) + μ²) · e
      loss = (Σ_b Σ_r (pos(b, r) − neg(b, r))) / 16384.
  The three literals are kept as the words both programs print (16384.0, −0.5, 2.0): the same word on both sides is
  never evaluated. The sums are sums in the extended reals, where + is commutative and associative everywhere.
-/
import Idealize.ShloMosaic.PureOps.Ideal
import Idealize.ShloMosaic.Lib.ValueIdx

noncomputable section

open scoped BigOperators

namespace Cert.Spec

open Idealize.ShloMosaic Idealize.ShloMosaic.ValueIdx

/-- The shape of x, and of p_mu and p_logvar. -/
abbrev SX : Shape := ⟨4, ![16, 512, 32, 32]⟩
abbrev SP : Shape := ⟨2, ![16384, 512]⟩

/-- The number of tokens, 16384.0, as both programs print it. -/
def cN : EReal := Ideal.ofBits .f32 0x46800000#32
/-- −0.5, as both programs print it. -/
def cHalf : EReal := Ideal.ofBits .f32 0xBF000000#32
/-- 2.0, as both programs print it. -/
def cTwo : EReal := Ideal.ofBits .f32 0x40000000#32

/-- Token (b, r) is row 1024·b + r of the token arrays, -/
def tok (b : Fin 16) (r : Fin 1024) : Fin 16384 := ⟨b.val * 1024 + r.val, by have := b.isLt; have := r.isLt; omega⟩
/-- at height r / 32 -/
def hgt (r : Fin 1024) : Fin 32 := ⟨r.val / 32, by have := r.isLt; omega⟩
/-- and width r % 32 of image b. -/
def wid (r : Fin 1024) : Fin 32 := ⟨r.val % 32, by have := r.isLt; omega⟩

section
variable (x : SX.Idx → EReal) (mu lv : SP.Idx → EReal)

/-- Feature d of token (b, r). -/
def X (b : Fin 16) (r : Fin 1024) (d : Fin 512) : EReal := x (ix4 b d (hgt r) (wid r))
/-- The predicted mean of feature d at token (b, r). -/
def Mu (b : Fin 16) (r : Fin 1024) (d : Fin 512) : EReal := mu (ix2 (tok b r) d)
/-- The inverse predicted variance exp(−logvar) of feature d at token (b, r). -/
def E (b : Fin 16) (r : Fin 1024) (d : Fin 512) : EReal := Ideal.exp (-(lv (ix2 (tok b r) d)))

/-- The sum of feature d over all tokens, and of its square. -/
def S1 (d : Fin 512) : EReal := ∑ b : Fin 16, ∑ r : Fin 1024, X x b r d
def S2 (d : Fin 512) : EReal := ∑ b : Fin 16, ∑ r : Fin 1024, X x b r d * X x b r d
/-- The two feature means. -/
def m1 (d : Fin 512) : EReal := Ideal.div (S1 x d) cN
def m2 (d : Fin 512) : EReal := Ideal.div (S2 x d) cN

/-- The positive bound of token (b, r). -/
def pos (b : Fin 16) (r : Fin 1024) : EReal :=
  cHalf * ∑ d : Fin 512, (X x b r d - Mu mu b r d) * (X x b r d - Mu mu b r d) * E lv b r d

/-- The negative bound of token (b, r), over two rows of feature means. -/
def neg (a1 a2 : Fin 512 → EReal) (b : Fin 16) (r : Fin 1024) : EReal :=
  cHalf * ∑ d : Fin 512, (a2 d - cTwo * Mu mu b r d * a1 d + Mu mu b r d * Mu mu b r d) * E lv b r d

/-- The contribution of batch entry b: the sum over its 1024 tokens of the positive minus the negative bound. -/
def part (a1 a2 : Fin 512 → EReal) (b : Fin 16) : EReal := ∑ r : Fin 1024, (pos x mu lv b r - neg mu lv a1 a2 b r)

/-- The mean over all tokens, over two given rows of feature means, -/
def lossOver (a1 a2 : Fin 512 → EReal) : EReal := Ideal.div (∑ b : Fin 16, part x mu lv a1 a2 b) cN

/-- and the loss: over the feature means of x itself. -/
def loss : EReal := lossOver x mu lv (m1 x) (m2 x)

end

end Cert.Spec

end
-- ==== Proof.Layout.lean ====
/-
  The layout operations and lane sums of the two kernel bodies, each read at one index over the extended reals:
  a sum along one axis is the finite sum of the entries along it; a reshape keeps the row-major position; the
  (feature, height, width) → (height·width, feature) re-layout of an image block reads token r = 32·h + w, feature d at
  [d, r / 32, r % 32]; a row broadcast down 1024 rows reads the row.
-/
import proofs.«114080_j36034775613659_1_alg».proof.Proof.Gen.KernelIdeal
import proofs.«114080_j36034775613659_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Layout

open Cert.KernelIdeal Idealize.ShloMosaic Idealize.ShloMosaic.ValueIdx
open Cert.Spec (hgt wid)

/-! ## Sums along one axis -/

/-- The sum over the width of an image block, at (feature, height). -/
theorem sum_width (src : FVec Ideal S512x32x32 .f32) (h : S512x32x32.Reduces [2] S512x32) (hφ : FKind.Formats .f32)
    (hacc : (0x00000000#32 : BitVec 32) = FKind.add.neutral .f32 hφ) (d : Fin 512) (k : Fin 32) :
    multiReduction .add [2] S512x32 src 0x00000000#32 h hφ hacc (ix2 d k) = ∑ w : Fin 32, src (ix3 d k w) :=
  (Ideal.multiReduction_add_single src _ h hφ hacc (ix2 d k)).trans
    (Finset.sum_congr rfl fun w _ => congrArg src (funext fun a => Fin.ext (by
      match a with | ⟨0, _⟩ => rfl | ⟨1, _⟩ => rfl | ⟨2, _⟩ => rfl)))

/-- The sum over the height, at a feature. -/
theorem sum_height (src : FVec Ideal S512x32 .f32) (h : S512x32.Reduces [1] S512) (hφ : FKind.Formats .f32)
    (hacc : (0x00000000#32 : BitVec 32) = FKind.add.neutral .f32 hφ) (d : Fin 512) :
    multiReduction .add [1] S512 src 0x00000000#32 h hφ hacc (ix1 d) = ∑ k : Fin 32, src (ix2 d k) :=
  (Ideal.multiReduction_add_single src _ h hφ hacc (ix1 d)).trans
    (Finset.sum_congr rfl fun k _ => congrArg src (funext fun a => Fin.ext (by
      match a with | ⟨0, _⟩ => rfl | ⟨1, _⟩ => rfl)))

/-- The sum over the 512 features of a token row. -/
theorem sum_features (src : FVec Ideal S1024x512 .f32) (h : S1024x512.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ d : Fin 512, src (ix2 r d) :=
  (Ideal.multiReduction_add_single src _ h hφ hacc (ix1 r)).trans
    (Finset.sum_congr rfl fun d _ => congrArg src (funext fun a => Fin.ext (by
      match a with | ⟨0, _⟩ => rfl | ⟨1, _⟩ => rfl)))

/-- The sum over the 1024 tokens of a block, laid out as one row. -/
theorem sum_tokens (src : FVec Ideal S1x1024 .f32) (h : S1x1024.Reduces [1] S1) (hφ : FKind.Formats .f32)
    (hacc : (0x00000000#32 : BitVec 32) = FKind.add.neutral .f32 hφ) (z : Fin 1) :
    multiReduction .add [1] S1 src 0x00000000#32 h hφ hacc (ix1 z) = ∑ r : Fin 1024, src (ix2 z r) :=
  (Ideal.multiReduction_add_single src _ h hφ hacc (ix1 z)).trans
    (Finset.sum_congr rfl fun r _ => congrArg src (funext fun a => Fin.ext (by
      match a with | ⟨0, _⟩ => rfl | ⟨1, _⟩ => rfl)))

/-! ## Reshapes, the re-layout and the row broadcast -/

section
variable {α : Type}

/-- Dropping the leading unit axis of an image block. -/
theorem drop_unit (x : S1x512x32x32.Idx → α) (h : S1x512x32x32.ShapeCasts S512x32x32) (d : Fin 512) (k w : Fin 32) :
    shapeCast S512x32x32 x h (ix3 d k w) = x (ix4 0 d k w) :=
  shapeCast_apply x h (ix3 d k w) (ix4 0 d k w) (by
    rw [Shape.rowMajor_val_four, Shape.rowMajor_val_three]
    show (((0 : Nat) * 512 + d.val) * 32 + k.val) * 32 + w.val = (d.val * 32 + k.val) * 32 + w.val
    omega)

/-- A vector of 512 features as a [1, 512] row. -/
theorem as_row (v : S512.Idx → α) (h : S512.ShapeCasts S1x512) (z : Fin 1) (d : Fin 512) :
    shapeCast S1x512 v h (ix2 z d) = v (ix1 d) :=
  shapeCast_apply v h (ix2 z d) (ix1 d) (by
    rw [Shape.rowMajor_val_one, Shape.rowMajor_val_two]
    show d.val = z.val * 512 + d.val
    have := z.isLt; omega)

/-- A vector of 1024 tokens as a [1, 1024] row. -/
theorem tokens_as_row (v : S1024.Idx → α) (h : S1024.ShapeCasts S1x1024) (z : Fin 1) (r : Fin 1024) :
    shapeCast S1x1024 v h (ix2 z r) = v (ix1 r) :=
  shapeCast_apply v h (ix2 z r) (ix1 r) (by
    rw [Shape.rowMajor_val_one, Shape.rowMajor_val_two]
    show r.val = z.val * 1024 + r.val
    have := z.isLt; omega)

/-- A one-entry vector as a [1, 1] cell. -/
theorem as_cell (v : S1.Idx → α) (h : S1.ShapeCasts S1x1) (z z' : Fin 1) :
    shapeCast S1x1 v h (ix2 z z') = v (ix1 0) :=
  shapeCast_apply v h (ix2 z z') (ix1 0) (by
    rw [Shape.rowMajor_val_one, Shape.rowMajor_val_two]
    show (0 : Nat) = z.val * 1 + z'.val
    have := z.isLt; have := z'.isLt; omega)

/-- The re-layout (feature, height, width) → (height, width, feature) → (token, feature): token r, feature d reads
    [d, r / 32, r % 32]. -/
theorem relayout (v : S512x32x32.Idx → α) (ht : S512x32x32.Transposes [1, 2, 0] S32x32x512)
    (hs : S32x32x512.ShapeCasts S1024x512) (r : Fin 1024) (d : Fin 512) :
    shapeCast S1024x512 (transpose S32x32x512 [1, 2, 0] v ht) hs (ix2 r d) = v (ix3 d (hgt r) (wid r)) :=
  (shapeCast_apply _ hs (ix2 r d) (ix3 (hgt r) (wid r) d) (by
    rw [Shape.rowMajor_val_three, Shape.rowMajor_val_two]
    show ((r.val / 32) * 32 + r.val % 32) * 512 + d.val = r.val * 512 + d.val
    have := r.isLt; omega)).trans
  (transpose_apply [1, 2, 0] v ht (ix3 (hgt r) (wid r) d) (ix3 d (hgt r) (wid r)) (fun b => by
    match b with | ⟨0, _⟩ => rfl | ⟨1, _⟩ => rfl | ⟨2, _⟩ => rfl))

/-- A [1, 512] row broadcast down the 1024 token rows reads the row. -/
theorem row_down (v : S1x512.Idx → α) (h : S1x512.Broadcasts S1024x512) (r : Fin 1024) (d : Fin 512) :
    broadcastTo S1024x512 v h (ix2 r d) = v (ix2 0 d) :=
  broadcastTo_apply v h (ix2 r d) (ix2 0 d) (fun a => by
    match a with
    | ⟨0, _⟩ => show (0 : Nat) = if (1 : Nat) = 1 then 0 else _; rw [if_pos rfl]
    | ⟨1, _⟩ => show d.val = if (512 : Nat) = 1 then 0 else d.val; rw [if_neg (by decide)])

end

end Cert.KernelIdeal.Layout

end
-- ==== Proof.PayloadValue.lean ====
/-
  The arithmetic of the two kernel bodies at one index, over the extended reals.

  Statistics pass: the update of the row of sums by an image block x (shape [1, 512, 32, 32]) is, at feature d, the old
  entry plus Σ_h Σ_w x[0, d, h, w]; of the row of sums of squares, the old entry plus Σ_h Σ_w x[0, d, h, w]².
  Loss pass: the block's contribution is the sum over its 1024 tokens r of
      (−1/2)·Σ_d (x[0, d, r/32, r%32] − μ[r, d])²·exp(0 − λ[r, d])  −  (−1/2)·Σ_d ((m2[d] − 2 μ[r, d]·m1[d]) + μ[r, d]²)·exp(0 − λ[r, d]),
  and the update of the running cell adds it to the old value. Every lane sum starts from the zero word, which the sum
  law absorbs; the zero of exp's argument is kept as the word the body splats.
-/
import proofs.«114080_j36034775613659_1_alg».proof.Proof.Gen.KernelIdeal.Skeleton
import proofs.«114080_j36034775613659_1_alg».proof.Proof.Layout

noncomputable section

open scoped BigOperators

namespace Cert.KernelIdeal.Payload

open Cert.KernelIdeal Cert.KernelIdeal.Gen Idealize.ShloMosaic Idealize.ShloMosaic.ValueIdx
open Cert.Spec (hgt wid cHalf cTwo)

/-- The zero word the bodies splat. -/
abbrev zw : EReal := Ideal.ofBits .f32 0x00000000#32

/-! ## The statistics pass -/

/-- The zero rows. -/
theorem zero_sum (y : S1x512.Idx) : (k0_pay2 (F := Ideal)) y = zw := rfl
theorem zero_sumsq (y : S1x512.Idx) : (k0_pay3 (F := Ideal)) y = zw := rfl

/-- The update of the row of sums, at feature d. -/
theorem sum_update (x : Vec Ideal S1x512x32x32 .f32) (acc : Vec Ideal S1x512 .f32) (z : Fin 1) (d : Fin 512) :
    k0_pay4 (F := Ideal) x acc (ix2 z d) = acc (ix2 z d) + ∑ k : Fin 32, ∑ w : Fin 32, x (ix4 0 d k w) := by
  unfold k0_pay4 k0_pay1
  dsimp only
  refine congrArg₂ (· + ·) (congrFun (shapeCast_self acc _) (ix2 z d)) ?_
  refine (Layout.as_row _ _ z d).trans ?_
  refine (Layout.sum_height _ _ _ _ d).trans ?_
  refine Finset.sum_congr rfl fun k _ => ?_
  refine (Layout.sum_width _ _ _ _ d k).trans ?_
  exact Finset.sum_congr rfl fun w _ => Layout.drop_unit x _ d k w

/-- The update of the row of sums of squares, at feature d. -/
theorem sumsq_update (x : Vec Ideal S1x512x32x32 .f32) (acc : Vec Ideal S1x512 .f32) (z : Fin 1) (d : Fin 512) :
    k0_pay5 (F := Ideal) x acc (ix2 z d)
      = acc (ix2 z d) + ∑ k : Fin 32, ∑ w : Fin 32, x (ix4 0 d k w) * x (ix4 0 d k w) := by
  unfold k0_pay5 k0_pay1
  dsimp only
  refine congrArg₂ (· + ·) (congrFun (shapeCast_self acc _) (ix2 z d)) ?_
  refine (Layout.as_row _ _ z d).trans ?_
  refine (Layout.sum_height _ _ _ _ d).trans ?_
  refine Finset.sum_congr rfl fun k _ => ?_
  refine (Layout.sum_width _ _ _ _ d k).trans ?_
  exact Finset.sum_congr rfl fun w _ => congrArg₂ (· * ·) (Layout.drop_unit x _ d k w) (Layout.drop_unit x _ d k w)

/-! ## The loss pass -/

/-- The zero cell. -/
theorem zero_cell (y : S1x1.Idx) : (k1_pay1 (F := Ideal)) y = zw := rfl

/-- The update of the running cell. -/
theorem cell_update (p : FVec Ideal S1x1 .f32) (s : Vec Ideal S1x1 .f32) (y : S1x1.Idx) :
    k1_pay2 (F := Ideal) p s y = s y + p y := by
  unfold k1_pay2
  exact congrArg₂ (· + ·) (congrFun (shapeCast_self s _) y) rfl

/-- The one index of a [1, 1] cell, as the body's `extract` spells it. -/
theorem cell_idx : (fun a => ⟨(![0, 0] : Fin 2 → Nat) a, inpos_S1x1_p0_0 a⟩ : S1x1.Idx) = ix2 0 0 :=
  funext fun a => Fin.ext (by match a with | ⟨0, _⟩ => rfl | ⟨1, _⟩ => rfl)

/-- The block's contribution. -/
theorem block_part (x0 : Vec Ideal S1x512x32x32 .f32) (x1 x2 : Vec Ideal S1024x512 .f32) (x3 x4 : Vec Ideal S1x512 .f32)
    (y : S1x1.Idx) :
    k1_pay3 (F := Ideal) x0 x1 x2 x3 x4 y =
      ∑ r : Fin 1024,
        (cHalf * ∑ d : Fin 512, (x0 (ix4 0 d (hgt r) (wid r)) - x1 (ix2 r d)) * (x0 (ix4 0 d (hgt r) (wid r)) - x1 (ix2 r d))
            * Ideal.exp (zw - x2 (ix2 r d))
          - cHalf * ∑ d : Fin 512, (x4 (ix2 0 d) - cTwo * x1 (ix2 r d) * x3 (ix2 0 d) + x1 (ix2 r d) * x1 (ix2 r d))
            * Ideal.exp (zw - x2 (ix2 r d))) := by
  unfold k1_pay3
  dsimp only
  show shapeCast S1x1 _ _ (fun a => ⟨(![0, 0] : Fin 2 → Nat) a, inpos_S1x1_p0_0 a⟩) = _
  rw [cell_idx]
  refine (Layout.as_cell _ _ 0 0).trans ?_
  refine (Layout.sum_tokens _ _ _ _ 0).trans ?_
  refine Finset.sum_congr rfl fun r _ => ?_
  refine (Layout.tokens_as_row _ _ 0 r).trans ?_
  refine congrArg₂ (· - ·) (congrArg (cHalf * ·) ?_) (congrArg (cHalf * ·) ?_)
  · refine (Layout.sum_features _ _ _ _ r).trans ?_
    refine Finset.sum_congr rfl fun d _ => ?_
    have hx := (Layout.relayout _ transposes_S512x32x32_p1_2_0_S32x32x512 shapeCasts_S32x32x512_S1024x512 r d).trans
      (Layout.drop_unit x0 shapeCasts_S1x512x32x32_S512x32x32 d (hgt r) (wid r))
    exact congrArg₂ (· * ·) (congrArg₂ (· * ·) (congrArg (· - x1 (ix2 r d)) hx) (congrArg (· - x1 (ix2 r d)) hx)) rfl
  · refine (Layout.sum_features _ _ _ _ r).trans ?_
    refine Finset.sum_congr rfl fun d _ => ?_
    have h1 := (Layout.row_down (shapeCast S1x512 x3 shapeCasts_S1x512_S1x512) broadcasts_S1x512_S1024x512 r d).trans
      (congrFun (shapeCast_self x3 shapeCasts_S1x512_S1x512) (ix2 0 d))
    have h2 := (Layout.row_down (shapeCast S1x512 x4 shapeCasts_S1x512_S1x512) broadcasts_S1x512_S1024x512 r d).trans
      (congrFun (shapeCast_self x4 shapeCasts_S1x512_S1x512) (ix2 0 d))
    exact congrArg₂ (· * ·) (congrArg₂ (· + ·) (congrArg₂ (· - ·) h2 (congrArg (cTwo * x1 (ix2 r d) * ·) h1)) rfl) rfl

end Cert.KernelIdeal.Payload

end
-- ==== Proof.SumLaws.lean ====
/-
  Two laws of finite sums in a commutative additive monoid (the extended reals under +, and functions into them),
  which is all the algebra the two sides of this certificate differ by:

  * a sum over the positions 0 … m·n − 1 of a row-major m × n table is the sum, row by row, of the sums along the rows;
  * an accumulator that starts at `0 + f 0` and then adds `f (n+1)` to what it held is, after step n, the sum
    f 0 + … + f n.

  Neither needs finiteness of the terms: + on the extended reals is commutative and associative everywhere, ±∞ included.
-/
import Mathlib.Algebra.BigOperators.Fin
import Mathlib.Algebra.BigOperators.Group.Finset.Basic
import Mathlib.Logic.Equiv.Fin.Basic

namespace Cert.SumLaws

open Finset

/-- The row-major position of entry (a, b) of an m × n table is a position of the table. -/
theorem pos_lt {m n a b : ℕ} (ha : a < m) (hb : b < n) : a * n + b < m * n := by
  have h1 : (a + 1) * n ≤ m * n := Nat.mul_le_mul_right n ha
  have h2 : (a + 1) * n = a * n + n := Nat.succ_mul a n
  omega

/-- A sum over all positions of a row-major m × n table, taken row by row. -/
theorem sum_rows {M : Type*} [AddCommMonoid M] (m n : ℕ) (g : Fin (m * n) → M) :
    ∑ k, g k = ∑ a : Fin m, ∑ b : Fin n, g ⟨a.val * n + b.val, pos_lt a.isLt b.isLt⟩ := by
  rw [← (finProdFinEquiv (m := m) (n := n)).sum_comp, Fintype.sum_prod_type]
  refine Finset.sum_congr rfl fun a _ => Finset.sum_congr rfl fun b _ => congrArg g (Fin.ext ?_)
  show b.val + n * a.val = a.val * n + b.val
  rw [Nat.mul_comm, Nat.add_comm]

/-- The same for a table whose number of positions is given as a numeral equal to m·n. -/
theorem sum_rows_of_eq {M : Type*} [AddCommMonoid M] {N : ℕ} (m n : ℕ) (hN : N = m * n) (g : Fin N → M) :
    ∑ k, g k = ∑ a : Fin m, ∑ b : Fin n, g ⟨a.val * n + b.val, hN ▸ pos_lt a.isLt b.isLt⟩ := by
  subst hN
  exact sum_rows m n g

/-- An accumulator started at `0 + f 0` and stepped by `+ f (n+1)` holds, after step n, the sum f 0 + … + f n. -/
theorem fold_eq_sum {M : Type*} [AddCommMonoid M] (acc f : ℕ → M) (h0 : acc 0 = 0 + f 0)
    (hs : ∀ n, acc (n + 1) = acc n + f (n + 1)) : ∀ n, acc n = ∑ i ∈ range (n + 1), f i
  | 0 => by rw [h0, zero_add, sum_range_one]
  | n + 1 => by rw [hs, fold_eq_sum acc f h0 hs n, sum_range_succ _ (n + 1)]

/-- The same when only the first N steps are known to be of that form. -/
theorem fold_eq_sum_upto {M : Type*} [AddCommMonoid M] (N : ℕ) (acc f : ℕ → M) (h0 : acc 0 = 0 + f 0)
    (hs : ∀ n, n + 1 < N → acc (n + 1) = acc n + f (n + 1)) : ∀ n, n < N → acc n = ∑ i ∈ range (n + 1), f i
  | 0, _ => by rw [h0, zero_add, sum_range_one]
  | n + 1, h => by
    rw [hs n h, fold_eq_sum_upto N acc f h0 hs n (Nat.lt_of_succ_lt h), sum_range_succ _ (n + 1)]

end Cert.SumLaws
-- ==== Proof.StatsValue.lean ====
/-
  The statistics pass at the ideal instance: its two result rows are the specification's feature sums.

  After point n the row of sums holds, at feature d, ((0 + s_0) + s_1) + … + s_n with s_b = Σ_h Σ_w x[b, d, h, w], which
  in the extended reals is Σ_{b ≤ n} s_b; at n = 15 this is Σ_b Σ_h Σ_w x[b, d, h, w], and the 32 × 32 positions (h, w) of
  an image are its 1024 tokens r = 32·h + w taken row by row: S1(d). The same with squares gives S2(d).
-/
import proofs.«114080_j36034775613659_1_alg».proof.Proof.BlockReads
import proofs.«114080_j36034775613659_1_alg».proof.Proof.PayloadValue
import proofs.«114080_j36034775613659_1_alg».proof.Proof.SumLaws
import proofs.«114080_j36034775613659_1_alg».proof.Proof.Spec

noncomputable section

open scoped BigOperators

namespace Cert.KernelIdeal.StatsValue

open Cert.KernelIdeal Cert.KernelIdeal.Gen Idealize.ShloMosaic Idealize.ShloMosaic.TcCoe Idealize.SL.Sem
open Idealize.ShloMosaic.ValueIdx
open Cert.Spec (hgt wid)

variable (V : (c : Dev nD) → (b : Ref sig .tc) → Buf (Elt Ideal) ((c : Thread nD τ).loc b))

/-- Position 32·k + w of an image is at height k -/
theorem hgt_mk (k w : Fin 32) (h : k.val * 32 + w.val < 1024) : hgt ⟨k.val * 32 + w.val, h⟩ = k :=
  Fin.ext (by show (k.val * 32 + w.val) / 32 = k.val; have := w.isLt; omega)
/-- and width w. -/
theorem wid_mk (k w : Fin 32) (h : k.val * 32 + w.val < 1024) : wid ⟨k.val * 32 + w.val, h⟩ = w :=
  Fin.ext (by show (k.val * 32 + w.val) % 32 = w.val; have := w.isLt; omega)

/-- The array x as the pass finds it, as a function into the extended reals. -/
abbrev xs (c : Dev nD) : Spec.SX.Idx → EReal := V c main_arg0

/-- The sum of feature d over image b (zero past the batch), and of its square. -/
def imgSum (c : Dev nD) (d : Fin 512) (n : ℕ) : EReal :=
  if h : n < 16 then ∑ k : Fin 32, ∑ w : Fin 32, xs V c (ix4 ⟨n, h⟩ d k w) else 0
def imgSumSq (c : Dev nD) (d : Fin 512) (n : ℕ) : EReal :=
  if h : n < 16 then ∑ k : Fin 32, ∑ w : Fin 32, xs V c (ix4 ⟨n, h⟩ d k w) * xs V c (ix4 ⟨n, h⟩ d k w) else 0

theorem lt16 {n : ℕ} (h : n < cfg0.N) : n < 16 := lt_of_lt_of_eq h N_0

/-- The running row of sums after point n is the sum of the image sums up to n. -/
theorem running_sum (c : Dev nD) (d : Fin 512) :
    ∀ (n : ℕ) (h : n < cfg0.N), (Stats.running V c n h).1 (ix2 0 d) = ∑ i ∈ Finset.range (n + 1), imgSum V c d i
  | 0, h => by
    refine (Payload.sum_update (Stats.xblk V c ⟨0, h⟩) (k0_pay2 (F := Ideal)) 0 d).trans ?_
    rw [Payload.zero_sum, Finset.sum_range_one, imgSum, dif_pos (lt16 h)]
    show Ideal.ofBits .f32 0x00000000#32 + _ = _
    rw [Ideal.ofBits_zero_f32, zero_add]
    exact Finset.sum_congr rfl fun k _ => Finset.sum_congr rfl fun w _ => Blocks.stats_x V c ⟨0, h⟩ ⟨0, lt16 h⟩ rfl d k w
  | n + 1, h => by
    refine (Payload.sum_update (Stats.xblk V c ⟨n + 1, h⟩) (Stats.running V c n (Nat.lt_of_succ_lt h)).1 0 d).trans ?_
    rw [running_sum c d n (Nat.lt_of_succ_lt h), Finset.sum_range_succ _ (n + 1), imgSum, dif_pos (lt16 h)]
    exact congrArg (_ + ·) (Finset.sum_congr rfl fun k _ => Finset.sum_congr rfl fun w _ =>
      Blocks.stats_x V c ⟨n + 1, h⟩ ⟨n + 1, lt16 h⟩ rfl d k w)

/-- The running row of sums of squares likewise. -/
theorem running_sumsq (c : Dev nD) (d : Fin 512) :
    ∀ (n : ℕ) (h : n < cfg0.N), (Stats.running V c n h).2 (ix2 0 d) = ∑ i ∈ Finset.range (n + 1), imgSumSq V c d i
  | 0, h => by
    refine (Payload.sumsq_update (Stats.xblk V c ⟨0, h⟩) (k0_pay3 (F := Ideal)) 0 d).trans ?_
    rw [Payload.zero_sumsq, Finset.sum_range_one, imgSumSq, dif_pos (lt16 h)]
    show Ideal.ofBits .f32 0x00000000#32 + _ = _
    rw [Ideal.ofBits_zero_f32, zero_add]
    exact Finset.sum_congr rfl fun k _ => Finset.sum_congr rfl fun w _ =>
      congrArg₂ (· * ·) (Blocks.stats_x V c ⟨0, h⟩ ⟨0, lt16 h⟩ rfl d k w) (Blocks.stats_x V c ⟨0, h⟩ ⟨0, lt16 h⟩ rfl d k w)
  | n + 1, h => by
    refine (Payload.sumsq_update (Stats.xblk V c ⟨n + 1, h⟩) (Stats.running V c n (Nat.lt_of_succ_lt h)).2 0 d).trans ?_
    rw [running_sumsq c d n (Nat.lt_of_succ_lt h), Finset.sum_range_succ _ (n + 1), imgSumSq, dif_pos (lt16 h)]
    exact congrArg (_ + ·) (Finset.sum_congr rfl fun k _ => Finset.sum_congr rfl fun w _ =>
      congrArg₂ (· * ·) (Blocks.stats_x V c ⟨n + 1, h⟩ ⟨n + 1, lt16 h⟩ rfl d k w)
        (Blocks.stats_x V c ⟨n + 1, h⟩ ⟨n + 1, lt16 h⟩ rfl d k w))

/-- The sum of a function of (height, width) over an image is its sum over the image's 1024 tokens. -/
theorem sum_image (g : Fin 32 → Fin 32 → EReal) :
    ∑ k : Fin 32, ∑ w : Fin 32, g k w = ∑ r : Fin 1024, g (hgt r) (wid r) := by
  rw [SumLaws.sum_rows_of_eq 32 32 (by norm_num : (1024 : ℕ) = 32 * 32) (fun r => g (hgt r) (wid r))]
  refine Finset.sum_congr rfl fun k _ => Finset.sum_congr rfl fun w _ => ?_
  rw [hgt_mk, wid_mk]

/-- The row of sums after the whole grid is the specification's S1. -/
theorem sumRow_apply (c : Dev nD) (d : Fin 512) : Stats.sumRow V c (ix2 0 d) = Spec.S1 (xs V c) d := by
  refine (running_sum V c d 15 Stats.last_lt).trans ?_
  rw [Finset.sum_range]
  unfold Spec.S1
  refine Finset.sum_congr rfl fun b _ => ?_
  rw [imgSum, dif_pos b.isLt]
  exact sum_image fun k w => xs V c (ix4 b d k w)

/-- The row of sums of squares after the whole grid is the specification's S2. -/
theorem sumsqRow_apply (c : Dev nD) (d : Fin 512) : Stats.sumsqRow V c (ix2 0 d) = Spec.S2 (xs V c) d := by
  refine (running_sumsq V c d 15 Stats.last_lt).trans ?_
  rw [Finset.sum_range]
  unfold Spec.S2
  refine Finset.sum_congr rfl fun b _ => ?_
  rw [imgSumSq, dif_pos b.isLt]
  exact sum_image fun k w => xs V c (ix4 b d k w) * xs V c (ix4 b d k w)

end Cert.KernelIdeal.StatsValue

end
-- ==== Proof.LossValue.lean ====
/-
  The loss pass at the ideal instance: its [1, 1] result is the sum over the batch of the specification's contributions.

  Grid point t reads image t, token rows 1024·t + r, and the two rows of means, so its contribution is the
  specification's `part` at batch entry t over those two rows (the body's exp(0 − λ) is exp(−λ): 0 − a = −a in the
  extended reals). After point n the cell holds ((0 + p_0) + p_1) + … + p_n = Σ_{b ≤ n} p_b.
-/
import proofs.«114080_j36034775613659_1_alg».proof.Proof.BlockReads
import proofs.«114080_j36034775613659_1_alg».proof.Proof.PayloadValue
import proofs.«114080_j36034775613659_1_alg».proof.Proof.Spec

noncomputable section

open scoped BigOperators

namespace Cert.KernelIdeal.LossValue

open Cert.KernelIdeal Cert.KernelIdeal.Gen Idealize.ShloMosaic Idealize.ShloMosaic.TcCoe Idealize.SL.Sem
open Idealize.ShloMosaic.ValueIdx
open Cert.Spec (hgt wid tok)

variable (V : (c : Dev nD) → (b : Ref sig .tc) → Buf (Elt Ideal) ((c : Thread nD τ).loc b))

/-- The two rows of means as the loss pass finds them, by feature. -/
abbrev row1 (c : Dev nD) (d : Fin 512) : EReal := V c main_v2 (ix2 0 d)
abbrev row2 (c : Dev nD) (d : Fin 512) : EReal := V c main_v4 (ix2 0 d)

/-- The specification's contribution of batch entry b over the arrays and rows the pass finds. -/
abbrev xs (c : Dev nD) : Spec.SX.Idx → EReal := V c main_arg0
abbrev mus (c : Dev nD) : Spec.SP.Idx → EReal := V c main_arg1
abbrev lvs (c : Dev nD) : Spec.SP.Idx → EReal := V c main_arg2
abbrev specPart (c : Dev nD) (b : Fin 16) : EReal :=
  Spec.part (xs V c) (mus V c) (lvs V c) (row1 V c) (row2 V c) b

theorem lt16 {n : ℕ} (h : n < cfg1.N) : n < 16 := lt_of_lt_of_eq h N_1

/-- The zero word subtracted from is the negation. -/
theorem zero_word_sub (a : EReal) : Payload.zw - a = -a := by
  show Ideal.ofBits .f32 0x00000000#32 - a = -a
  rw [Ideal.ofBits_zero_f32, zero_sub]

/-- Point t's contribution is the specification's at batch entry t. -/
theorem part_value (c : Dev nD) (t : Fin cfg1.N) (b : Fin 16) (hb : t.val = b.val) (y : S1x1.Idx) :
    Loss.part V c t y = specPart V c b := by
  refine (Payload.block_part (Loss.xblk V c t) (Loss.mublk V c t) (Loss.lvblk V c t) (Loss.m1blk V c t) (Loss.m2blk V c t) y).trans ?_
  unfold specPart Spec.part
  refine Finset.sum_congr rfl fun r _ => ?_
  have hn : (tok b r).val = t.val * 1024 + r.val := by show b.val * 1024 + r.val = _; rw [hb]
  unfold Spec.pos Spec.neg
  refine congrArg₂ (· - ·) (congrArg (Spec.cHalf * ·) (Finset.sum_congr rfl fun d _ => ?_))
    (congrArg (Spec.cHalf * ·) (Finset.sum_congr rfl fun d _ => ?_))
  · unfold Spec.X Spec.Mu Spec.E
    rw [Blocks.loss_x V c t b hb d (hgt r) (wid r), Blocks.loss_mu V c t (tok b r) r hn d,
      Blocks.loss_lv V c t (tok b r) r hn d, zero_word_sub]
  · unfold Spec.Mu Spec.E
    rw [Blocks.loss_mu V c t (tok b r) r hn d, Blocks.loss_lv V c t (tok b r) r hn d, Blocks.loss_m1 V c t d,
      Blocks.loss_m2 V c t d, zero_word_sub]

/-- The contribution of point n (zero past the batch). -/
def contrib (c : Dev nD) (n : ℕ) : EReal := if h : n < 16 then specPart V c ⟨n, h⟩ else 0

/-- The running cell after point n is the sum of the contributions up to n. -/
theorem running_total (c : Dev nD) (y : S1x1.Idx) :
    ∀ (n : ℕ) (h : n < cfg1.N), Loss.running V c n h y = ∑ i ∈ Finset.range (n + 1), contrib V c i
  | 0, h => by
    refine (Payload.cell_update (Loss.part V c ⟨0, h⟩) (k1_pay1 (F := Ideal)) y).trans ?_
    rw [Payload.zero_cell, Finset.sum_range_one, contrib, dif_pos (lt16 h), part_value V c ⟨0, h⟩ ⟨0, lt16 h⟩ rfl y]
    show Ideal.ofBits .f32 0x00000000#32 + _ = _
    rw [Ideal.ofBits_zero_f32, zero_add]
  | n + 1, h => by
    refine (Payload.cell_update (Loss.part V c ⟨n + 1, h⟩) (Loss.running V c n (Nat.lt_of_succ_lt h)) y).trans ?_
    rw [running_total c y n (Nat.lt_of_succ_lt h), Finset.sum_range_succ _ (n + 1), contrib, dif_pos (lt16 h),
      part_value V c ⟨n + 1, h⟩ ⟨n + 1, lt16 h⟩ rfl y]

/-- The cell after the whole grid is the sum over the batch of the specification's contributions. -/
theorem total_apply (c : Dev nD) (y : S1x1.Idx) : Loss.total V c y = ∑ b : Fin 16, specPart V c b := by
  refine (running_total V c y 15 Loss.last_lt).trans ?_
  rw [Finset.sum_range]
  refine Finset.sum_congr rfl fun b _ => ?_
  rw [contrib, dif_pos b.isLt]

end Cert.KernelIdeal.LossValue

end
-- ==== Proof.KernelValue.lean ====
/-
  The idealized kernel's result, at the ideal instance, is the specification's loss.

  Between the two grids the host divides the two rows of sums by 16384: the rows the loss pass finds are the
  specification's feature means m1 and m2 of x. The loss pass's arrays are the arguments (no host operation and no grid
  writes them). After it the host reads the [1, 1] cell as a scalar and divides by 16384. So the result is
      (Σ_b part(b over m1, m2)) / 16384,
  the specification's loss.
-/
import proofs.«114080_j36034775613659_1_alg».proof.Proof.StatsValue
import proofs.«114080_j36034775613659_1_alg».proof.Proof.LossValue
import Idealize.ShloMosaic.Lib.StableHlo.Run

noncomputable section

open scoped BigOperators

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The three argument arrays as launched, as functions into the extended reals. -/
abbrev xs (c : Dev nD) : Spec.SX.Idx → EReal := m ((c : Thread nD τ).loc main_arg0)
abbrev mus (c : Dev nD) : Spec.SP.Idx → EReal := m ((c : Thread nD τ).loc main_arg1)
abbrev lvs (c : Dev nD) : Spec.SP.Idx → EReal := m ((c : Thread nD τ).loc main_arg2)

/-! ## What the loss pass finds -/

/-- The loss pass finds x as launched: the host stretch before it and the statistics pass leave it alone. -/
theorem entry_x (c : Dev nD) : LossValue.xs (V2 m ρ) c = xs m c := by
  show StableHlo.after hostOps1 (W1 m ρ c) (Proc.devRef .tc main_arg0) = _
  after_results
  exact (W1_arr m ρ c 0).trans (((dat0 (V0 m ρ) c).arrAt_in 0 rfl _).trans (A_eq0 (V0 m ρ) c 0))

/-- It finds p_mu as launched. -/
theorem entry_mu (c : Dev nD) : LossValue.mus (V2 m ρ) c = mus m c := by
  show StableHlo.after hostOps1 (W1 m ρ c) (Proc.devRef .tc main_arg1) = _
  after_results
  exact W1_of_ne m ρ c main_arg1 (by decide)

/-- It finds p_logvar as launched. -/
theorem entry_lv (c : Dev nD) : LossValue.lvs (V2 m ρ) c = lvs m c := by
  show StableHlo.after hostOps1 (W1 m ρ c) (Proc.devRef .tc main_arg2) = _
  after_results
  exact W1_of_ne m ρ c main_arg2 (by decide)

/-- The scalar 16384 stretched to a row reads 16384 everywhere. -/
theorem stretched_count (i : S1x512.Idx) :
    broadcastInDim S1x512 ![] bcast_S_S1x512 (constant (F := Ideal) S_ .f32 0x46800000#32) i = Spec.cN :=
  (broadcastInDim_apply _ bcast_S_S1x512 _ i ix0 (fun a => a.elim0)).trans rfl

/-- The first row it finds is the row of sums over 16384: -/
theorem entry_row1_eq (c : Dev nD) :
    V2 m ρ c main_v2 = Host.divf (F := Ideal) (W1 m ρ c (Proc.devRef .tc main_v0_0))
      (broadcastInDim S1x512 ![] bcast_S_S1x512 (constant (F := Ideal) S_ .f32 0x46800000#32)) := by
  show StableHlo.after hostOps1 (W1 m ρ c) (Proc.devRef .tc main_v2) = _
  after_results

/-- the specification's feature means of x. -/
theorem entry_row1 (c : Dev nD) : LossValue.row1 (V2 m ρ) c = Spec.m1 (xs m c) := by
  funext d
  show V2 m ρ c main_v2 (ix2 0 d) = _
  rw [entry_row1_eq]
  show Ideal.div (W1 m ρ c (Proc.devRef .tc main_v0_0) (ix2 0 d)) (broadcastInDim S1x512 ![] bcast_S_S1x512 (constant (F := Ideal) S_ .f32 0x46800000#32) (ix2 0 d)) = _
  rw [stretched_count, (W1_arr m ρ c 1).trans (Stats.final_sum (V0 m ρ) c), StatsValue.sumRow_apply]
  rfl

/-- The second row it finds is the row of sums of squares over 16384: -/
theorem entry_row2_eq (c : Dev nD) :
    V2 m ρ c main_v4 = Host.divf (F := Ideal) (W1 m ρ c (Proc.devRef .tc main_v0_1))
      (broadcastInDim S1x512 ![] bcast_S_S1x512 (constant (F := Ideal) S_ .f32 0x46800000#32)) := by
  show StableHlo.after hostOps1 (W1 m ρ c) (Proc.devRef .tc main_v4) = _
  after_results

/-- the specification's feature mean squares of x. -/
theorem entry_row2 (c : Dev nD) : LossValue.row2 (V2 m ρ) c = Spec.m2 (xs m c) := by
  funext d
  show V2 m ρ c main_v4 (ix2 0 d) = _
  rw [entry_row2_eq]
  show Ideal.div (W1 m ρ c (Proc.devRef .tc main_v0_1) (ix2 0 d)) (broadcastInDim S1x512 ![] bcast_S_S1x512 (constant (F := Ideal) S_ .f32 0x46800000#32) (ix2 0 d)) = _
  rw [stretched_count, (W1_arr m ρ c 2).trans (Stats.final_sumsq (V0 m ρ) c), StatsValue.sumsqRow_apply]
  rfl

/-! ## The result -/

/-- After the last host stretch the result is the [1, 1] cell, read as a scalar, over 16384. -/
theorem result_eq (c : Dev nD) :
    W4 m ρ c (Proc.devRef .tc main_v7) = Host.divf (F := Ideal)
      (shapeCast S_ (W3 m ρ c (Proc.devRef .tc main_v5)) shapeCasts_S1x1_S_) (constant (F := Ideal) S_ .f32 0x46800000#32) := by
  show StableHlo.after hostOps2 (W3 m ρ c) (Proc.devRef .tc main_v7) = _
  after_results
  rfl

/-- A [1, 1] array read as a scalar is its one entry. -/
theorem cell_as_scalar {α : Type} (v : S1x1.Idx → α) (j : S_.Idx) : shapeCast S_ v shapeCasts_S1x1_S_ j = v (ix2 0 0) :=
  shapeCast_apply v shapeCasts_S1x1_S_ j (ix2 0 0) (by
    have h1 : (S1x1.rowMajor (ix2 0 0)).val < 1 := (S1x1.rowMajor (ix2 0 0)).isLt
    have h2 : (S_.rowMajor j).val < 1 := (S_.rowMajor j).isLt
    omega)

/-- The idealized kernel's result is the specification's loss of the arguments. -/
theorem result_value (c : Dev nD) :
    W4 m ρ c (Proc.devRef .tc main_v7) = fun _ => Spec.loss (xs m c) (mus m c) (lvs m c) := by
  rw [result_eq]
  funext j
  show Ideal.div (shapeCast S_ (W3 m ρ c (Proc.devRef .tc main_v5)) shapeCasts_S1x1_S_ j) Spec.cN = _
  rw [cell_as_scalar, (W3_arr m ρ c 5).trans (Loss.final_total (V2 m ρ) c), LossValue.total_apply]
  unfold LossValue.specPart
  rw [entry_x, entry_mu, entry_lv, entry_row1, entry_row2]
  rfl

end Cert.KernelIdeal.KernelValue

end
-- ==== Proof.RefValue.lean ====
/-
  The value of the reference program, read one operation at a time, is the specification's loss.

  The reference first lays x out by tokens: it moves the feature axis last and flattens (batch, height, width) into one
  row index, so that row n = 1024·b + r, column d of the flattened array is x[b, d, r / 32, r % 32], the number the
  specification calls X(b, r, d). Everything after that is elementwise arithmetic on [16384, 512] tables, five sums, and
  three divisions by the literal 16384:
    * the column sums of the flattened x and of its square, divided by 16384, are the two rows of feature means; a sum
      over the 16384 rows of a table is the sum over the 16 batch entries of the sums over their 1024 tokens, because the
      rows are numbered row-major by (b, r) and + on the extended reals is commutative and associative;
    * each mean row is stretched back over all rows ([512] to [1, 512] to [16384, 512]); read at row n, column d the
      stretched table is just the mean of feature d, whatever n is;
    * the positive term of a token is −1/2 times its row sum of (x − μ)² · exp(−logvar), the negative term −1/2 times its
      row sum of ((m2 − 2 μ · m1) + μ²) · exp(−logvar): letter for letter the specification's pos and neg, the reference
      writing each product and difference in the same order as the specification does;
    * the loss is the sum over all rows of pos − neg, divided by 16384; the rows are again regrouped by batch entry.
  Every sum the reference takes starts from the literal 0.0, which is the extended real 0 and disappears; the three other
  literals (16384.0, −0.5, 2.0) stay the words they are on both sides. No property of the numbers is used beyond
  commutativity and associativity of +: nothing needs to be finite.
-/
import proofs.«114080_j36034775613659_1_alg».proof.Defs
import proofs.«114080_j36034775613659_1_alg».proof.Proof.Gen.ReferenceIdeal.Run
import proofs.«114080_j36034775613659_1_alg».proof.Proof.Gen.ReferenceIdeal.Read
import proofs.«114080_j36034775613659_1_alg».proof.Proof.Spec
import proofs.«114080_j36034775613659_1_alg».proof.Proof.SumLaws

noncomputable section

open scoped BigOperators

namespace Cert.ReferenceIdeal.RefValue

open Cert.ReferenceIdeal Cert.ReferenceIdeal.Read Idealize.ShloMosaic Idealize.ShloMosaic.ValueIdx

variable (x0 : (⟨S16x512x32x32, .f32⟩ : BufTy).Contents (Elt Ideal)) (x1 x2 : (⟨S16384x512, .f32⟩ : BufTy).Contents (Elt Ideal))

/-! ## Sums over rows -/

/-- A quotient changes with its numerator only. -/
theorem div_congr {a b c : EReal} (h : a = b) : Ideal.div a c = Ideal.div b c := by rw [h]

/-- A sum over the one-coordinate indices of a length-16384 array is the sum over the coordinate. -/
theorem sum_rows_idx (f : S16384.Idx → EReal) : ∑ j, f j = ∑ k : Fin 16384, f (ix1 k) := by
  let e : S16384.Idx ≃ Fin 16384 :=
    { toFun := fun j => j 0, invFun := fun k => ix1 k, left_inv := fun j => (eq_ix1 j).symm, right_inv := fun _ => rfl }
  rw [← Equiv.sum_comp e.symm f]
  rfl

/-- A sum over the 16384 rows, taken batch entry by batch entry: row 1024·b + r is token (b, r). -/
theorem sum_tokens (g : Fin 16384 → EReal) : ∑ k, g k = ∑ b : Fin 16, ∑ r : Fin 1024, g (Spec.tok b r) :=
  Cert.SumLaws.sum_rows_of_eq 16 1024 (by norm_num) g

/-! ## The indices the sums and the stretched rows read -/

/-- The row sums of the positive term read row n at column d. -/
theorem idx_v7 (n : Fin 16384) (d : Fin 512) : idx_main_v7 (ix1 n) d = ix2 n d := by
  funext a; match a with | ⟨0, _⟩ => rfl | ⟨1, _⟩ => rfl

/-- The row sums of the negative term read row n at column d. -/
theorem idx_v28 (n : Fin 16384) (d : Fin 512) : idx_main_v28 (ix1 n) d = ix2 n d := by
  funext a; match a with | ⟨0, _⟩ => rfl | ⟨1, _⟩ => rfl

/-- The column sums of x read row n at column d. -/
theorem idx_v10 (d : Fin 512) (n : Fin 16384) : idx_main_v10 (ix1 d) n = ix2 n d := by
  funext a; match a with | ⟨0, _⟩ => rfl | ⟨1, _⟩ => rfl

/-- The column sums of x² read row n at column d. -/
theorem idx_v14 (d : Fin 512) (n : Fin 16384) : idx_main_v14 (ix1 d) n = ix2 n d := by
  funext a; match a with | ⟨0, _⟩ => rfl | ⟨1, _⟩ => rfl

/-! ## The flattened x -/

/-- Row 1024·b + r, column d of the flattened x is x[b, d, r / 32, r % 32]. -/
theorem flat_x (b : Fin 16) (r : Fin 1024) (d : Fin 512) :
    val_main_v1 (F := Ideal) x0 (ix2 (Spec.tok b r) d) = Spec.X x0 b r d := by
  rw [val_main_v1_apply, val_main_v0_apply]
  unfold Spec.X
  refine congrArg x0 (funext fun a => Fin.ext ?_)
  have hb := b.isLt
  have hr := r.isLt
  have hd := d.isLt
  match a with
  | ⟨0, _⟩ => show ((b.val * 1024 + r.val) * 512 + d.val) / 524288 = b.val; omega
  | ⟨1, _⟩ => show ((b.val * 1024 + r.val) * 512 + d.val) % 512 = d.val; omega
  | ⟨2, _⟩ => show ((b.val * 1024 + r.val) * 512 + d.val) / 16384 % 32 = r.val / 32; omega
  | ⟨3, _⟩ => show ((b.val * 1024 + r.val) * 512 + d.val) / 512 % 32 = r.val % 32; omega

/-! ## The two rows of feature means -/

/-- The first mean row is the specification's: the column sum of x over 16384. -/
theorem mean1 (d : Fin 512) : val_main_v12 (F := Ideal) x0 (ix1 d) = Spec.m1 x0 d := by
  rw [val_main_v12_apply, val_main_v10_apply, val_main_v11_apply, val_main_cst_2_apply, val_main_cst_1_apply]
  simp only [Ideal.hostDivf_def, Ideal.ofBits_def, Ideal.ofBits_zero_f32, zero_add]
  unfold Spec.m1 Spec.S1 Spec.cN
  refine div_congr ?_
  rw [sum_tokens]
  refine Finset.sum_congr rfl fun b _ => Finset.sum_congr rfl fun r _ => ?_
  rw [idx_v10, flat_x]

/-- The second mean row is the specification's: the column sum of x² over 16384. -/
theorem mean2 (d : Fin 512) : val_main_v16 (F := Ideal) x0 (ix1 d) = Spec.m2 x0 d := by
  rw [val_main_v16_apply, val_main_v14_apply, val_main_v15_apply, val_main_cst_4_apply, val_main_cst_3_apply]
  simp only [Ideal.hostDivf_def, Ideal.ofBits_def, Ideal.ofBits_zero_f32, zero_add]
  unfold Spec.m2 Spec.S2 Spec.cN
  refine div_congr ?_
  rw [sum_tokens]
  refine Finset.sum_congr rfl fun b _ => Finset.sum_congr rfl fun r _ => ?_
  rw [idx_v14, val_main_v13_apply, flat_x]
  rfl

/-- The first mean row stretched over all rows, read at row n, column d, is the mean of feature d. -/
theorem stretch1 (n : Fin 16384) (d : Fin 512) :
    val_main_v20 (F := Ideal) x0 (ix2 n d) = val_main_v12 (F := Ideal) x0 (ix1 d) := by
  rw [val_main_v20_apply, val_main_v19_apply]
  refine congrArg (val_main_v12 (F := Ideal) x0) (funext fun a => ?_)
  match a with | ⟨0, _⟩ => rfl

/-- The second mean row stretched over all rows, read at row n, column d, is the mean square of feature d. -/
theorem stretch2 (n : Fin 16384) (d : Fin 512) :
    val_main_v23 (F := Ideal) x0 (ix2 n d) = val_main_v16 (F := Ideal) x0 (ix1 d) := by
  rw [val_main_v23_apply, val_main_v22_apply]
  refine congrArg (val_main_v16 (F := Ideal) x0) (funext fun a => ?_)
  match a with | ⟨0, _⟩ => rfl

/-! ## The two terms of a token -/

/-- The summand of the positive term at token (b, r), feature d. -/
theorem pos_elt (b : Fin 16) (r : Fin 1024) (d : Fin 512) :
    val_main_v6 (F := Ideal) x0 x1 x2 (ix2 (Spec.tok b r) d)
      = (Spec.X x0 b r d - Spec.Mu x1 b r d) * (Spec.X x0 b r d - Spec.Mu x1 b r d) * Spec.E x2 b r d := by
  rw [val_main_v6_apply, val_main_v5_apply, val_main_v4_apply, val_main_v3_apply, val_main_v2_apply, flat_x]
  simp only [Ideal.mulf_def, Ideal.subf_def, Ideal.hostUnary_exp_def, Ideal.hostNegf_def, Ideal.negf_def]
  rfl

/-- The positive term of token (b, r). -/
theorem pos_row (b : Fin 16) (r : Fin 1024) :
    val_main_v9 (F := Ideal) x0 x1 x2 (ix1 (Spec.tok b r)) = Spec.pos x0 x1 x2 b r := by
  rw [val_main_v9_apply, val_main_v8_apply, val_main_cst_0_apply, val_main_v7_apply, val_main_cst_apply]
  simp only [Ideal.mulf_def, Ideal.ofBits_def, Ideal.ofBits_zero_f32, zero_add]
  unfold Spec.pos Spec.cHalf
  refine congrArg (_ * ·) (Finset.sum_congr rfl fun d _ => ?_)
  rw [idx_v7, pos_elt]

/-- The summand of the negative term at token (b, r), feature d, over the feature means of x. -/
theorem neg_elt (b : Fin 16) (r : Fin 1024) (d : Fin 512) :
    val_main_v27 (F := Ideal) x0 x1 x2 (ix2 (Spec.tok b r) d)
      = (Spec.m2 x0 d - Spec.cTwo * Spec.Mu x1 b r d * Spec.m1 x0 d + Spec.Mu x1 b r d * Spec.Mu x1 b r d) * Spec.E x2 b r d := by
  rw [val_main_v27_apply, val_main_v26_apply, val_main_v25_apply, val_main_v24_apply, val_main_v21_apply,
    val_main_v18_apply, val_main_v17_apply, val_main_cst_5_apply, val_main_v3_apply, val_main_v2_apply,
    stretch1, stretch2, mean1, mean2]
  simp only [Ideal.mulf_def, Ideal.subf_def, Ideal.addf_def, Ideal.ofBits_def, Ideal.hostUnary_exp_def,
    Ideal.hostNegf_def, Ideal.negf_def]
  rfl

/-- The negative term of token (b, r). -/
theorem neg_row (b : Fin 16) (r : Fin 1024) :
    val_main_v30 (F := Ideal) x0 x1 x2 (ix1 (Spec.tok b r)) = Spec.neg x1 x2 (Spec.m1 x0) (Spec.m2 x0) b r := by
  rw [val_main_v30_apply, val_main_v29_apply, val_main_cst_7_apply, val_main_v28_apply, val_main_cst_6_apply]
  simp only [Ideal.mulf_def, Ideal.ofBits_def, Ideal.ofBits_zero_f32, zero_add]
  unfold Spec.neg Spec.cHalf
  refine congrArg (_ * ·) (Finset.sum_congr rfl fun d _ => ?_)
  rw [idx_v28, neg_elt]

/-! ## The loss -/

/-- The reference's result is the specification's loss. -/
theorem ref_value (x0 : (⟨S16x512x32x32, .f32⟩ : BufTy).Contents (Elt Ideal)) (x1 x2 : (⟨S16384x512, .f32⟩ : BufTy).Contents (Elt Ideal)) :
    Cert.ReferenceIdeal.Read.val_main_v33 (F := Ideal) x0 x1 x2 = fun _ => Cert.Spec.loss x0 x1 x2 := by
  funext i
  rw [val_main_v33_apply, val_main_v32_apply, val_main_cst_9_apply, val_main_cst_8_apply]
  simp only [Ideal.hostDivf_def, Ideal.ofBits_def, Ideal.ofBits_zero_f32, zero_add]
  unfold Spec.loss Spec.lossOver Spec.cN
  refine div_congr ?_
  rw [sum_rows_idx, sum_tokens]
  refine Finset.sum_congr rfl fun b _ => ?_
  unfold Spec.part
  refine Finset.sum_congr rfl fun r _ => ?_
  rw [val_main_v31_apply, pos_row, neg_row]
  rfl

end Cert.ReferenceIdeal.RefValue

end
-- ==== Proof.lean ====
/-
  The certificate of the CLUB mutual-information bound kernel against its jnp reference, over the extended reals.

  Both programs compute, from x of shape [16, 512, 32, 32] and the predicted means and log-variances of shape
  [16384, 512], the number
      loss = (Σ_tokens (pos − neg)) / 16384
  with pos = (−1/2)·Σ_d (x − μ)²·exp(−logvar) and neg = (−1/2)·Σ_d ((m2 − 2 μ·m1) + μ²)·exp(−logvar), m1 and m2 the means
  over all 16384 tokens of each feature and of its square (Proof/Spec.lean). The kernel takes the two feature sums in a
  first grid over the 16 batch entries, accumulating per-image sums into two rows, divides them by 16384 on the host,
  and in a second grid accumulates each batch entry's Σ_tokens (pos − neg) into one cell, which the host divides by
  16384; the reference flattens x by tokens and takes every sum over the whole token axis at once. The two differ only in
  how finite sums are grouped and in starting every sum from a zero, and addition on the extended reals is commutative
  and associative with 0 neutral everywhere, ±∞ included: no finiteness of the inputs is used by the value.

  The kernel's run at either instance terminates without a fault and leaves the arguments unchanged; the reference's run
  likewise. The ideal pass rewrote nothing, so the idealized kernel is the kernel's own text read at the ideal instance.
-/
import proofs.«114080_j36034775613659_1_alg».proof.Defs
import proofs.«114080_j36034775613659_1_alg».proof.Proof.Gen.Kernel
import proofs.«114080_j36034775613659_1_alg».proof.Proof.Gen.Kernel.Frame
import proofs.«114080_j36034775613659_1_alg».proof.Proof.Gen.KernelIdeal
import proofs.«114080_j36034775613659_1_alg».proof.Proof.Gen.KernelIdeal.Frame
import proofs.«114080_j36034775613659_1_alg».proof.Proof.Gen.ReferenceIdeal
import proofs.«114080_j36034775613659_1_alg».proof.Proof.Gen.ReferenceIdeal.Run
import proofs.«114080_j36034775613659_1_alg».proof.Proof.Gen.ReferenceIdeal.Read
import proofs.«114080_j36034775613659_1_alg».proof.Proof.Gen.Pre_finite_inputs
import proofs.«114080_j36034775613659_1_alg».proof.Proof.RunValue
import proofs.«114080_j36034775613659_1_alg».proof.Proof.KernelValue
import proofs.«114080_j36034775613659_1_alg».proof.Proof.RefValue
import Idealize.ShloMosaic.Adequacy
import Idealize.ShloMosaic.Init

noncomputable section

namespace Cert.Proof

open Idealize.ShloMosaic Idealize.ShloMosaic.TcCoe Idealize.SL.Sem

/-- The kernel's run: generated whole. -/
theorem frame_kernel : Cert.frame_Kernel := fun m ρ _ => Cert.Kernel.Gen.frame m ρ

/-- The idealized kernel's run: generated whole. -/
theorem frame_kernel_ideal : Cert.frame_KernelIdeal := fun m ρ _ => Cert.KernelIdeal.Gen.frame m ρ

/-- The reference's run: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance both programs end at the specification's loss of arguments that agree. -/
theorem algebraic : Cert.algebraic_KernelIdeal_ReferenceIdeal := by
  intro m ρ m' ρ' _ hagree
  refine ⟨fun c _ => Cert.Spec.loss (Cert.KernelIdeal.KernelValue.xs m c) (Cert.KernelIdeal.KernelValue.mus m c)
    (Cert.KernelIdeal.KernelValue.lvs m c), ?_, ?_⟩
  · exact (θ_run Cert.KernelIdeal.defs _ _).mono
      (fun _ h c => ⟨(h c).1.trans (Cert.KernelIdeal.KernelValue.result_value m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v33_eq, Cert.ReferenceIdeal.RefValue.ref_value, (hagree c).1, (hagree c).2.1,
      (hagree c).2.2]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
